-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000x3 : Shape := ⟨2, ![100000, 3]⟩
abbrev S129x64 : Shape := ⟨2, ![129, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S2x1600000 32 := broadcastInDim S2x1600000 ![] bcast_S_S2x1600000 main_c_14
  let main_v40 : IVec S2x1600000 1 := cmpi .sge main_arg1 main_v39
  let main_c_15 : IVec S_ 32 := constantI S_ 32 100000#32
  let main_v41 : IVec S2x1600000 32 := broadcastInDim S2x1600000 ![] bcast_S_S2x1600000 main_c_15
  let main_v42 : IVec S2x1600000 1 := cmpi .slt main_arg1 main_v41
  let main_v43 : IVec S2x1600000 1 := andi main_v40 main_v42
  let main_c_16 : IVec S_ 1 := constantI S_ 1 1#1
  let main_v44 : IVec S_ 1 := (fun x v => Host.reduce IntOp.andi x v reducesTo_S2x1600000_S_d0_1 h_S_) main_v43 main_c_16
  let main_v45 : IVec S_ 1 := andi main_v38 main_v44
  main_v45

def fn_part1 {F : FTy → Type} [FloatOps F] (main_arg1 : IVec S2x1600000 32) (main_arg5 : FVec F S64x1 .f32) (main_arg6 : FVec F S1 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S2x1600000 32) (main_arg2 : FVec F S100000x3 .f32) (main_arg3 : FVec F S129x64 .f32) (main_arg4 : FVec F S64 .f32) (main_arg5 : FVec F S64x1 .f32) (main_arg6 : FVec F S1 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S129x64 .f32 := Host.absf main_arg3
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1600000 : Shape := ⟨2, ![2, 1600000]⟩
abbrev S100000x3 : Shape := ⟨2, ![100000, 3]⟩
abbrev S129x64 : Shape := ⟨2, ![129, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S1600000x3 : Shape := ⟨2, ![1600000, 3]⟩
abbrev S1x64 : Shape := ⟨2, ![1, 64]⟩
abbrev S2000x64 : Shape := ⟨2, ![2000, 64]⟩
abbrev S2000x1 : Shape := ⟨2, ![2000, 1]⟩

abbrev nBuf : Space → Nat
  | .hbm => 123
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x3, .f32⟩
  | .hbm, ⟨3, _⟩ => ⟨S129x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1, .i32⟩
  | .hbm, ⟨45, _⟩ => ⟨S_, .i32⟩
  | .hbm, ⟨46, _⟩ => ⟨S1600000x1, .i32⟩
  | .hbm, ⟨47, _⟩ => ⟨S1600000x1, .i1⟩
  | .hbm, ⟨48, _⟩ => ⟨S1x1, .i32⟩
  | .hbm, ⟨49, _⟩ => ⟨S1600000x1, .i32⟩
  | .hbm, ⟨50, _⟩ => ⟨S1600000x1, .i1⟩
  | .hbm, ⟨51, _⟩ => ⟨S1600000x1, .i1⟩
  | .hbm, ⟨52, _⟩ => ⟨S_, .i1⟩
  | .hbm, ⟨53, _⟩ => ⟨S1600000, .i1⟩
  | .hbm, ⟨54, _⟩ => ⟨S1600000x64, .f32⟩
  | .hbm, ⟨55, _⟩ => ⟨S1600000x64, .i1⟩
  | .hbm, ⟨56, _⟩ => ⟨S_, .f32⟩
  | .hbm, ⟨57, _⟩ => ⟨S1600000x64, .f32⟩
  | .hbm, ⟨58, _⟩ => ⟨S1600000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1, .i32⟩
  | .hbm, ⟨68, _⟩ => ⟨S_, .i32⟩
  | .hbm, ⟨69, _⟩ => ⟨S1600000x1, .i32⟩
  | .hbm, ⟨70, _⟩ => ⟨S1600000x1, .i1⟩
  | .hbm, ⟨71, _⟩ => ⟨S1x1, .i32⟩
  | .hbm, ⟨72, _⟩ => ⟨S1600000x1, .i32⟩
  | .hbm, ⟨73, _⟩ => ⟨S1600000x1, .i1⟩
  | .hbm, ⟨74, _⟩ => ⟨S1600000x1, .i1⟩
  | .hbm, ⟨75, _⟩ => ⟨S_, .i1⟩
  | .hbm, ⟨76, _⟩ => ⟨S1600000, .i1⟩
  | .hbm, ⟨77, _⟩ => ⟨S1600000x3, .f32⟩
  | .hbm, ⟨78, _⟩ => ⟨S1600000x3, .i1⟩
  | .hbm, ⟨79, _⟩ => ⟨S_, .f32⟩
  | .hbm, ⟨80, _⟩ => ⟨S1600000x3, .f32⟩
  | .hbm, ⟨81, _⟩ => ⟨S1600000x3, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1, .i32⟩
  | .hbm, ⟨91, _⟩ => ⟨S_, .i32⟩
  | .hbm, ⟨92, _⟩ => ⟨S1600000x1, .i32⟩
  | .hbm, ⟨93, _⟩ => ⟨S1600000x1, .i1⟩
  | .hbm, ⟨94, _⟩ => ⟨S1x1, .i32⟩
  | .hbm, ⟨95, _⟩ => ⟨S1600000x1, .i32⟩
  | .hbm, ⟨96, _⟩ => ⟨S1600000x1, .i1⟩
  | .hbm, ⟨97, _⟩ => ⟨S1600000x1, .i1⟩
  | .hbm, ⟨98, _⟩ => ⟨S_, .i1⟩
  | .hbm, ⟨99, _⟩ => ⟨S1600000, .i1⟩
  | .hbm, ⟨100, _⟩ => ⟨S1600000x3, .f32⟩
  | .hbm, ⟨101, _⟩ => ⟨S1600000x3, .i1⟩
  | .hbm, ⟨102, _⟩ => ⟨S_, .f32⟩
  | .hbm, ⟨103, _⟩ => ⟨S1600000x3, .f32⟩
  | .hbm, ⟨104, _⟩ => ⟨S1600000x3, .f32⟩
  | .hbm, ⟨105, _⟩ => ⟨S1600000x3, .f32⟩
  | .hbm, ⟨106, _⟩ => ⟨S1600000x3, .f32⟩
  | .hbm, ⟨107, _⟩ => ⟨S_, .f32⟩
  | .hbm, ⟨108, _⟩ => ⟨S1600000, .f32⟩
  | .hbm, ⟨109, _⟩ => ⟨S1600000x1, .f32⟩
  | .hbm, ⟨110, _⟩ => ⟨S1600000x1, .f32⟩
  | .hbm, ⟨111, _⟩ => ⟨S64x64, .f32⟩
  | .hbm, ⟨112, _⟩ => ⟨S64x64, .f32⟩
  | .hbm, ⟨113, _⟩ => ⟨S1x64, .f32⟩
  | .hbm, ⟨114, _⟩ => ⟨S1x64, .f32⟩
  | .hbm, ⟨115, _⟩ => ⟨S1x1, .f32⟩
  | .hbm, ⟨116, _⟩ => ⟨S1x64, .f32⟩
  | .hbm, ⟨117, _⟩ => ⟨S1600000x64, .f32⟩
  | .hbm, ⟨118, _⟩ => ⟨S1600000x1, .f32⟩
  | .hbm, ⟨119, _⟩ => ⟨S_, .f32⟩
  | .hbm, ⟨120, _⟩ => ⟨S100000x64, .f32⟩
  | .hbm, ⟨121, _⟩ => ⟨S1600000x1, .i32⟩
  | .hbm, ⟨122, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S64x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v6 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v7 : Ref sig .tc := ⟨.hbm, 104, rfl⟩
abbrev main_v8 : Ref sig .tc := ⟨.hbm, 105, rfl⟩
abbrev main_call4_v0 : Ref sig .tc := ⟨.hbm, 106, rfl⟩
abbrev main_call4_cst : Ref sig .tc := ⟨.hbm, 107, rfl⟩
abbrev main_call4_v1 : Ref sig .tc := ⟨.hbm, 108, rfl⟩
abbrev main_call4_v2 : Ref sig .tc := ⟨.hbm, 109, rfl⟩
abbrev main_v9 : Ref sig .tc := ⟨.hbm, 110, rfl⟩
abbrev main_v10 : Ref sig .tc := ⟨.hbm, 111, rfl⟩
abbrev main_v11 : Ref sig .tc := ⟨.hbm, 112, rfl⟩
abbrev main_v12 : Ref sig .tc := ⟨.hbm, 113, rfl⟩
abbrev main_v13 : Ref sig .tc := ⟨.hbm, 114, rfl⟩
abbrev main_v14 : Ref sig .tc := ⟨.hbm, 115, rfl⟩
abbrev main_v15 : Ref sig .tc := ⟨.hbm, 116, rfl⟩
abbrev main_v16_0 : Ref sig .tc := ⟨.hbm, 117, rfl⟩
abbrev main_v16_1 : Ref sig .tc := ⟨.hbm, 118, rfl⟩
abbrev main_cst : Ref sig .tc := ⟨.hbm, 119, rfl⟩
abbrev main_v17 : Ref sig .tc := ⟨.hbm, 120, rfl⟩
abbrev main_v18 : Ref sig .tc := ⟨.hbm, 121, rfl⟩
abbrev main_v19 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000_S1600000x3_0 : S1600000.BroadcastsInDim S1600000x3 (![0] : Fin 1 → Fin S1600000x3.rank)
  bcast_S_S1600000x3 : S_.BroadcastsInDim S1600000x3 (![] : Fin 0 → Fin S1600000x3.rank)
  reducesTo_S1600000x3_S1600000_d1 : S1600000x3.ReducesTo [1] S1600000
  slices_S129x64_S64x64_0_0 : S129x64.Slices ![0, 0] S64x64
  slices_S129x64_S64x64_64_0 : S129x64.Slices ![64, 0] S64x64
  slices_S129x64_S1x64_128_0 : S129x64.Slices ![128, 0] S1x64
  shapeCasts_S64_S1x64 : S64.ShapeCasts S1x64
  shapeCasts_S1_S1x1 : S1.ShapeCasts S1x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x64 : S2000x1.Broadcasts S2000x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  gather_S100000x3_S1600000x1_S1600000x3_1_0_n_n_0_1_13_wf : GatherDims.WF S100000x3 S1600000x1 S1600000x3 [1] [0] [] [0] [] 1 ![1, 3]
  dot_S2000x64_S64x64_S2000x64_1_0_0_1_n_n_wf : DotDims.WF S2000x64 S64x64 S2000x64 [1] [0] [0] [1] [] []
  dot_S2000x1_S1x64_S2000x64_1_0_0_1_n_n_wf : DotDims.WF S2000x1 S1x64 S2000x64 [1] [0] [0] [1] [] []
  dot_S2000x64_S64x1_S2000x1_1_0_0_1_n_n_wf : DotDims.WF S2000x64 S64x1 S2000x1 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S1600000x64.size a
  hwx0_0 : ∀ i : grid0.Coords, EltTy.bits .f32 = 32 ∨ (Rect.block (s := S1600000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1600000x64.size a
  hwx0_1 : ∀ i : grid0.Coords, EltTy.bits .f32 = 32 ∨ (Rect.block (s := S1600000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S1600000x1.size a
  hwx0_2 : ∀ i : grid0.Coords, EltTy.bits .f32 = 32 ∨ (Rect.block (s := S1600000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S1600000x64.size a
  hwx0_11 : ∀ i : grid0.Coords, EltTy.bits .f32 = 32 ∨ (Rect.block (s := S1600000x64) S2000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S1600000x1.size a
  hwx0_12 : ∀ i : grid0.Coords, EltTy.bits .f32 = 32 ∨ (Rect.block (s := S1600000x1) S2000x1.size (cc0_transform_12 i) (hinb0_12 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x1_S1x64_S2000x64_1_0_0_1_n_n : DotDims S2000x1 S1x64 S2000x64 where
  lhsContracting := [1]
  rhsContracting := [0]
  lhsNonContracting := [0]
  rhsNonContracting := [1]
  lhsBatch := []
  rhsBatch := []
  wf := dot_S2000x1_S1x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v4) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16_0) S2000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v16_1) S2000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000x3 : Shape := ⟨2, ![100000, 3]⟩
abbrev S129x64 : Shape := ⟨2, ![129, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1600000x129 : Shape := ⟨2, ![1600000, 129]⟩
abbrev S1x64 : Shape := ⟨2, ![1, 64]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x3, .f32⟩
  | .hbm, ⟨3, _⟩ => ⟨S129x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x3, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x3, .f32⟩
  | .hbm, ⟨31, _⟩ => ⟨S1600000x3, .f32⟩
  | .hbm, ⟨32, _⟩ => ⟨S1600000x3, .f32⟩
  | .hbm, ⟨33, _⟩ => ⟨S_, .f32⟩
  | .hbm, ⟨34, _⟩ => ⟨S1600000, .f32⟩
  | .hbm, ⟨35, _⟩ => ⟨S1600000x1, .f32⟩
  | .hbm, ⟨36, _⟩ => ⟨S1600000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x129, .f32⟩
  | .hbm, ⟨56, _⟩ => ⟨S1600000x64, .f32⟩
  | .hbm, ⟨57, _⟩ => ⟨S1x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S1600000x64, .f32⟩
  | .hbm, ⟨62, _⟩ => ⟨S1600000x64, .f32⟩
  | .hbm, ⟨63, _⟩ => ⟨S1600000x1, .f32⟩
  | .hbm, ⟨64, _⟩ => ⟨S1x1, .f32⟩
  | .hbm, ⟨65, _⟩ => ⟨S1600000x1, .f32⟩
  | .hbm, ⟨66, _⟩ => ⟨S1600000x1, .f32⟩
  | .hbm, ⟨67, _⟩ => ⟨S1600000x1, .f32⟩
  | .hbm, ⟨68, _⟩ => ⟨S1600000x1, .f32⟩
  | .hbm, ⟨69, _⟩ => ⟨S_, .f32⟩
  | .hbm, ⟨70, _⟩ => ⟨S1600000x1, .f32⟩
  | .hbm, ⟨71, _⟩ => ⟨S1600000x1, .f32⟩
  | .hbm, ⟨72, _⟩ => ⟨S_, .f32⟩
  | .hbm, ⟨73, _⟩ => ⟨S1600000x1, .f32⟩
  | .hbm, ⟨74, _⟩ => ⟨S1600000x1, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_cst : Ref sig .tc := ⟨.hbm, 60, rfl⟩
abbrev main_call1_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x64_S1600000x64_S1600000x1_S1600000x129_d1 : Shape.Concatenates [S1600000x64, S1600000x64, S1600000x1] S1600000x129 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x3_S1600000x1_S1600000x3_1_0_n_n_0_1_13_wf : GatherDims.WF S100000x3 S1600000x1 S1600000x3 [1] [0] [] [0] [] 1 ![1, 3]
  gather_S100000x64_S1600000x1_S1600000x64_1_0_n_n_0_1_164_wf : GatherDims.WF S100000x64 S1600000x1 S1600000x64 [1] [0] [] [0] [] 1 ![1, 64]
  dot_S1600000x129_S129x64_S1600000x64_1_0_0_1_n_n_wf : DotDims.WF S1600000x129 S129x64 S1600000x64 [1] [0] [0] [1] [] []
  dot_S1600000x64_S64x1_S1600000x1_1_0_0_1_n_n_wf : DotDims.WF S1600000x64 S64x1 S1600000x1 [1] [0] [0] [1] [] []
  dot_S100000x64_S64x64_S100000x64_1_0_0_1_n_n_wf : DotDims.WF S100000x64 S64x64 S100000x64 [1] [0] [0] [1] [] []
  scatter_S100000x64_S1600000x1_S1600000x64_1_0_0_1_wf : ScatterDims.WF S100000x64 S1600000x1 S1600000x64 [1] [0] [0] 1

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x129_S129x64_S1600000x64_1_0_0_1_n_n : DotDims S1600000x129 S129x64 S1600000x64 where
  lhsContracting := [1]
  rhsContracting := [0]
  lhsNonContracting := [0]
  rhsNonContracting := [1]
  lhsBatch := []
  rhsBatch := []
  wf := dot_S1600000x129_S129x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.PreDecode.lean ====
/-
  What the precondition says of the edge list: every entry is the number of a node.
-/
import proofs.«419605_j38345468018707_1_alg».proof.Pre_finite_inputs
import Idealize.ShloMosaic.PureOps.Ideal
import Idealize.ShloMosaic.Lib.ValueIdx
import Idealize.ShloMosaic.Lib.ReduceAll
import Idealize.ShloMosaic.Lib.Affine
import Idealize.ShloMosaic.Lib.StableHlo.Predicate

noncomputable section

namespace Cert.PreDecode

open Idealize.ShloMosaic Idealize.ShloMosaic.ValueIdx Cert.Pre_finite_inputs

/-- Under the precondition every entry of the edge list, read signed, lies in `[0, 100000)`. -/
theorem index_range [Cert.Pre_finite_inputs.Facts] (a0 : FVec Ideal S100000x64 .f32) (a1 : IVec S2x1600000 32) (a2 : FVec Ideal S100000x3 .f32)
    (a3 : FVec Ideal S129x64 .f32) (a4 : FVec Ideal S64 .f32) (a5 : FVec Ideal S64x1 .f32) (a6 : FVec Ideal S1 .f32)
    (a7 : FVec Ideal S64x64 .f32) (a8 : FVec Ideal S64 .f32)
    (h : Cert.Pre_finite_inputs.fn (F := Ideal) a0 a1 a2 a3 a4 a5 a6 a7 a8 = fun _ => 1#1) (i : S2x1600000.Idx) :
    0 ≤ (a1 i).toInt ∧ (a1 i).toInt < 100000 := by
  -- the claim at the result's one index; its outermost conjunct is the reduce over the edge list
  have h0 := congrFun h ValueIdx.ix0
  dsimp only [fn, fn_part1, fn_part2] at h0
  obtain ⟨-, h1⟩ := IntOp.andi_eq_one.1 h0
  -- a reduce by `and` over all axes that is 1 had a 1 at every entry
  haveI : Subsingleton S_.Idx := ⟨fun a b => funext fun d => d.elim0⟩
  have h2 := Host.reduce_andi_all _ _ _ _ _ h1 i
  -- the entry is the conjunction of the two signed comparisons against the broadcast constants
  obtain ⟨hge, hlt⟩ := IntOp.andi_eq_one.1 h2
  have hge' : (0#32).toInt ≤ (a1 i).toInt := IntOp.cmpi_sge.1 hge
  have hlt' : (a1 i).toInt < (100000#32).toInt := IntOp.cmpi_slt.1 hlt
  have e0 : (0#32).toInt = 0 := by decide
  have e1 : (100000#32).toInt = 100000 := by decide
  rw [e0] at hge'
  rw [e1] at hlt'
  exact ⟨hge', hlt'⟩

end Cert.PreDecode

end
-- ==== Proof.EdgeSpec.lean ====
/-
  One edge of the weighted edge convolution, as pure functions on the extended reals.

  An edge carries the feature rows `xs`, `xd` of its source and destination nodes (64 entries each) and its length
  `el`. The first layer's weight matrix has 129 rows: 64 that meet `xs`, 64 that meet `xd`, and one that meets `el`;
  here they are three pieces `Wa`, `Wb`, `Wc`. A hidden unit is the rectified affine form of the three, the edge's
  weight is the logistic function of an affine form of the hidden units, and the message along the edge is the
  source row's affine image under `WT`, `BT` scaled by the weight.

  Written with the 129 rows as one matrix, a hidden unit's sum runs over `Fin 129`; `sum_fin129` splits such a sum
  into the two blocks of 64 and the last term. Addition on the extended reals is commutative and associative, so the
  split holds with no finiteness assumption.
-/
import Idealize.ShloMosaic.PureOps.Ideal
import Mathlib.Algebra.BigOperators.Fin

noncomputable section

namespace Cert.EdgeSpec

open Idealize.ShloMosaic

/-- Hidden unit `j` of one edge: `max (xs·Wa[:,j] + xd·Wb[:,j] + el·Wc[j] + B1[j]) 0`. -/
def hidden (Wa Wb : Fin 64 → Fin 64 → EReal) (Wc B1 : Fin 64 → EReal) (xs xd : Fin 64 → EReal) (el : EReal)
    (j : Fin 64) : EReal :=
  max ((∑ k : Fin 64, xs k * Wa k j) + (∑ k : Fin 64, xd k * Wb k j) + el * Wc j + B1 j) 0

/-- The edge's weight: the logistic function of `hidden·W2 + B2`. -/
def weight (Wa Wb : Fin 64 → Fin 64 → EReal) (Wc B1 W2 : Fin 64 → EReal) (B2 : EReal) (xs xd : Fin 64 → EReal)
    (el : EReal) : EReal :=
  Ideal.logistic ((∑ j : Fin 64, hidden Wa Wb Wc B1 xs xd el j * W2 j) + B2)

/-- Entry `j` of the message along the edge: `(xs·WT[:,j] + BT[j]) · w`, `w` the edge's weight. -/
def message (WT : Fin 64 → Fin 64 → EReal) (BT : Fin 64 → EReal) (xs : Fin 64 → EReal) (w : EReal) (j : Fin 64) :
    EReal :=
  ((∑ k : Fin 64, xs k * WT k j) + BT j) * w

/-- A sum over 129 terms is the sum of its first 64, its next 64, and its last. -/
theorem sum_fin129 (f : Fin 129 → EReal) :
    ∑ k : Fin 129, f k
      = (∑ k : Fin 64, f ⟨k.val, by omega⟩) + (∑ k : Fin 64, f ⟨64 + k.val, by omega⟩) + f ⟨128, by norm_num⟩ := by
  have h1 := Fin.sum_univ_add (a := 128) (b := 1) (f := f)
  have h2 := Fin.sum_univ_add (a := 64) (b := 64) (f := fun i : Fin 128 => f (Fin.castAdd 1 i))
  rw [h1, h2, Fin.sum_univ_one]
  rfl

end Cert.EdgeSpec

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.KernelPayload.lean ====
/-
  The kernel body's two stored values, read at an index of the block, at the ideal values.
-/
import proofs.«419605_j38345468018707_1_alg».proof.Proof.Gen.KernelIdeal.Skeleton
import proofs.«419605_j38345468018707_1_alg».proof.Proof.EdgeSpec
import proofs.«419605_j38345468018707_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.EdgeSpec

/-! ## The operand indices of the body's three kinds of product

Each product contracts the left operand's second axis with the right operand's first; at output index `i` and
contraction index `q` the left operand is read at `(i 0, q)` and the right at `(q, i 1)`. -/

private theorem lhsA_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
private theorem lhsA_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
private theorem rhsA_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
private theorem rhsA_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

private theorem lhsB_0 (i : S2000x64.Idx) (q : dot_S2000x1_S1x64_S2000x64_1_0_0_1_n_n.contr.Idx) :
    (dot_S2000x1_S1x64_S2000x64_1_0_0_1_n_n.lhsIdx i q 0).val = (i 0).val := by
  unfold DotDims.lhsIdx
  rw [dif_neg (show ¬(0 : Fin S2000x1.rank) ∈ dot_S2000x1_S1x64_S2000x64_1_0_0_1_n_n.lhsBatch by decide), dif_pos (show (0 : Fin S2000x1.rank) ∈ dot_S2000x1_S1x64_S2000x64_1_0_0_1_n_n.lhsNonContracting by decide)]
  rfl
private theorem lhsB_1 (i : S2000x64.Idx) (q : dot_S2000x1_S1x64_S2000x64_1_0_0_1_n_n.contr.Idx) :
    (dot_S2000x1_S1x64_S2000x64_1_0_0_1_n_n.lhsIdx i q 1).val = (q ⟨0, by decide⟩).val :=
  dot_S2000x1_S1x64_S2000x64_1_0_0_1_n_n.lhsIdx_val_of_single rfl i q
private theorem rhsB_0 (i : S2000x64.Idx) (q : dot_S2000x1_S1x64_S2000x64_1_0_0_1_n_n.contr.Idx) :
    (dot_S2000x1_S1x64_S2000x64_1_0_0_1_n_n.rhsIdx i q 0).val = (q ⟨0, by decide⟩).val :=
  dot_S2000x1_S1x64_S2000x64_1_0_0_1_n_n.rhsIdx_val_of_single rfl i q
private theorem rhsB_1 (i : S2000x64.Idx) (q : dot_S2000x1_S1x64_S2000x64_1_0_0_1_n_n.contr.Idx) :
    (dot_S2000x1_S1x64_S2000x64_1_0_0_1_n_n.rhsIdx i q 1).val = (i 1).val := by
  unfold DotDims.rhsIdx
  rw [dif_neg (show ¬(1 : Fin S1x64.rank) ∈ dot_S2000x1_S1x64_S2000x64_1_0_0_1_n_n.rhsBatch by decide), dif_pos (show (1 : Fin S1x64.rank) ∈ dot_S2000x1_S1x64_S2000x64_1_0_0_1_n_n.rhsNonContracting by decide)]
  rfl

private theorem lhsC_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
private theorem lhsC_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
private theorem rhsC_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
private theorem rhsC_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-! ## The products into a zero accumulator, read at an index -/

/-- A `[2000, 64] × [64, 64]` product into the zero accumulator at `(r, j)`: the sum over the 64 contracted positions. -/
private theorem mmA_sum (lhs : FVec Ideal S2000x64 .bf16) (rhs : FVec Ideal S64x64 .bf16) (r : Fin 2000) (j : Fin 64) :
    matmul dot_S2000x64_S64x64_S2000x64_1_0_0_1_n_n none lhs rhs (constant S2000x64 .f32 0x00000000#32) (ix2 r j)
      = ∑ k : Fin 64, lhs (ix2 r k) * rhs (ix2 k j) := by
  refine (Ideal.matmul_constant_zero_apply dot_S2000x64_S64x64_S2000x64_1_0_0_1_n_n none lhs rhs (ix2 r j)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 r j) ((ValueIdx.contrEquiv1 dot_S2000x64_S64x64_S2000x64_1_0_0_1_n_n 64 rfl rfl).symm k) = ix2 r k := funext fun a => Fin.ext (by
    match a with
    | ⟨0, _⟩ => exact lhsA_0 _ _
    | ⟨1, _⟩ => exact (lhsA_1 _ _).trans hk)
  have er : dot_S2000x64_S64x64_S2000x64_1_0_0_1_n_n.rhsIdx (ix2 r j) ((ValueIdx.contrEquiv1 dot_S2000x64_S64x64_S2000x64_1_0_0_1_n_n 64 rfl rfl).symm k) = ix2 k j := funext fun a => Fin.ext (by
    match a with
    | ⟨0, _⟩ => exact (rhsA_0 _ _).trans hk
    | ⟨1, _⟩ => exact rhsA_1 _ _)
  rw [el, er]

/-- A `[2000, 1] × [1, 64]` product into the zero accumulator at `(r, j)`: a sum over the one contracted position. -/
private theorem mmB_sum (lhs : FVec Ideal S2000x1 .bf16) (rhs : FVec Ideal S1x64 .bf16) (r : Fin 2000) (j : Fin 64) :
    matmul dot_S2000x1_S1x64_S2000x64_1_0_0_1_n_n none lhs rhs (constant S2000x64 .f32 0x00000000#32) (ix2 r j)
      = ∑ k : Fin 1, lhs (ix2 r k) * rhs (ix2 k j) := by
  refine (Ideal.matmul_constant_zero_apply dot_S2000x1_S1x64_S2000x64_1_0_0_1_n_n none lhs rhs (ix2 r j)).trans ?_
  rw [← Equiv.sum_comp (ValueIdx.contrEquiv1 dot_S2000x1_S1x64_S2000x64_1_0_0_1_n_n 1 rfl rfl).symm]
  refine Finset.sum_congr rfl fun k _ => ?_
  have hk := ValueIdx.contrEquiv1_symm_val dot_S2000x1_S1x64_S2000x64_1_0_0_1_n_n 1 rfl rfl k
  have el : dot_S2000x1_S1x64_S2000x64_1_0_0_1_n_n.lhsIdx (ix2 r j) ((ValueIdx.contrEquiv1 dot_S2000x1_S1x64_S2000x64_1_0_0_1_n_n 1 rfl rfl).symm k) = ix2 r k := funext fun a => Fin.ext (by
    match a with
    | ⟨0, _⟩ => exact lhsB_0 _ _
    | ⟨1, _⟩ => exact (lhsB_1 _ _).trans hk)
  have er : dot_S2000x1_S1x64_S2000x64_1_0_0_1_n_n.rhsIdx (ix2 r j) ((ValueIdx.contrEquiv1 dot_S2000x1_S1x64_S2000x64_1_0_0_1_n_n 1 rfl rfl).symm k) = ix2 k j := funext fun a => Fin.ext (by
    match a with
    | ⟨0, _⟩ => exact (rhsB_0 _ _).trans hk
    | ⟨1, _⟩ => exact rhsB_1 _ _)
  rw [el, er]

/-- A `[2000, 64] × [64, 1]` product into the zero accumulator at `(r, u)`: the sum over the 64 contracted positions. -/
private theorem mmC_sum (lhs : FVec Ideal S2000x64 .bf16) (rhs : FVec Ideal S64x1 .bf16) (r : Fin 2000) (j : Fin 1) :
    matmul dot_S2000x64_S64x1_S2000x1_1_0_0_1_n_n none lhs rhs (constant S2000x1 .f32 0x00000000#32) (ix2 r j)
      = ∑ k : Fin 64, lhs (ix2 r k) * rhs (ix2 k j) := by
  refine (Ideal.matmul_constant_zero_apply dot_S2000x64_S64x1_S2000x1_1_0_0_1_n_n none lhs rhs (ix2 r j)).trans ?_
  rw [← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 r j) ((ValueIdx.contrEquiv1 dot_S2000x64_S64x1_S2000x1_1_0_0_1_n_n 64 rfl rfl).symm k) = ix2 r k := funext fun a => Fin.ext (by
    match a with
    | ⟨0, _⟩ => exact lhsC_0 _ _
    | ⟨1, _⟩ => exact (lhsC_1 _ _).trans hk)
  have er : dot_S2000x64_S64x1_S2000x1_1_0_0_1_n_n.rhsIdx (ix2 r j) ((ValueIdx.contrEquiv1 dot_S2000x64_S64x1_S2000x1_1_0_0_1_n_n 64 rfl rfl).symm k) = ix2 k j := funext fun a => Fin.ext (by
    match a with
    | ⟨0, _⟩ => exact (rhsC_0 _ _).trans hk
    | ⟨1, _⟩ => exact rhsC_1 _ _)
  rw [el, er]

/-! ## The body's values at an index -/

/-- The value the body multiplies into the second layer, at row `r`: the sum over the hidden units of the unit
    times its second-layer weight. -/
private theorem pay4_apply (x0 x1 : Vec Ideal S2000x64 .f32) (x2 : Vec Ideal S2000x1 .f32) (x3 x4 : Vec Ideal S64x64 .f32)
    (x5 x6 : Vec Ideal S1x64 .f32) (x7 : Vec Ideal S64x1 .f32) (r : Fin 2000) (u : Fin 1) :
    k0_pay4 (F := Ideal) x0 x1 x2 x3 x4 x5 x6 x7 (ix2 r u)
      = ∑ j : Fin 64, Cert.EdgeSpec.hidden (fun k j => x3 (ix2 k j)) (fun k j => x4 (ix2 k j)) (fun j => x5 (ix2 (0 : Fin 1) j))
          (fun j => x6 (ix2 (0 : Fin 1) j)) (fun k => x0 (ix2 r k)) (fun k => x1 (ix2 r k)) (x2 (ix2 r (0 : Fin 1))) j
          * x7 (ix2 j (0 : Fin 1)) := by
  have hu : u = 0 := Subsingleton.elim u 0
  subst hu
  unfold k0_pay4 k0_pay3
  simp only [shapeCast_self]
  refine (mmC_sum _ _ r (0 : Fin 1)).trans (Finset.sum_congr rfl fun j _ => ?_)
  refine congrArg (· * x7 (ix2 j (0 : Fin 1))) ?_
  unfold Cert.EdgeSpec.hidden
  simp only [truncf_apply, maximumf_apply, addf_apply, broadcast_apply]
  refine congrArg₂ max (congrArg₂ (· + ·) (congrArg₂ (· + ·) (congrArg₂ (· + ·) ?_ ?_) ?_) ?_) Ideal.ofBits_zero_f32
  · exact mmA_sum _ _ r j
  · exact mmA_sum _ _ r j
  · exact (mmB_sum _ _ r j).trans (Fin.sum_univ_one _)
  · exact broadcastTo_1b_ab_apply x6 broadcasts_S1x64_S2000x64 r j

/-- The second layer's bias, broadcast down the block's rows, at any row. -/
private theorem pay5_apply (x8 : Vec Ideal S1x1 .f32) (r : Fin 2000) (u : Fin 1) :
    k0_pay5 (F := Ideal) x8 (ix2 r u) = x8 (ix2 (0 : Fin 1) (0 : Fin 1)) := by
  have hu : u = 0 := Subsingleton.elim u 0
  subst hu
  unfold k0_pay5
  simp only [shapeCast_self]
  exact broadcastTo_1b_ab_apply x8 broadcasts_S1x1_S2000x1 r (0 : Fin 1)

/-- The weight the body stores for row `r` of the block. -/
theorem pay_weight (x0 x1 : Vec Ideal S2000x64 .f32) (x2 : Vec Ideal S2000x1 .f32) (x3 x4 : Vec Ideal S64x64 .f32)
    (x5 x6 : Vec Ideal S1x64 .f32) (x7 : Vec Ideal S64x1 .f32) (x8 : Vec Ideal S1x1 .f32) (r : Fin 2000) (u : Fin 1) :
    k0_pay1 (F := Ideal) (k0_pay4 x0 x1 x2 x3 x4 x5 x6 x7) (k0_pay5 x8) (ix2 r u)
      = weight (fun k j => x3 (ix2 k j)) (fun k j => x4 (ix2 k j)) (fun j => x5 (ix2 (0 : Fin 1) j))
          (fun j => x6 (ix2 (0 : Fin 1) j)) (fun j => x7 (ix2 j (0 : Fin 1))) (x8 (ix2 (0 : Fin 1) (0 : Fin 1)))
          (fun k => x0 (ix2 r k)) (fun k => x1 (ix2 r k)) (x2 (ix2 r (0 : Fin 1))) := by
  show Ideal.logistic (k0_pay4 (F := Ideal) x0 x1 x2 x3 x4 x5 x6 x7 (ix2 r u) + k0_pay5 (F := Ideal) x8 (ix2 r u)) = _
  rw [pay4_apply, pay5_apply]
  rfl

/-- The message entry the body stores at row `r`, column `j` of the block. -/
theorem pay_message (x0 x1 : Vec Ideal S2000x64 .f32) (x2 : Vec Ideal S2000x1 .f32) (x3 x4 : Vec Ideal S64x64 .f32)
    (x5 x6 : Vec Ideal S1x64 .f32) (x7 : Vec Ideal S64x1 .f32) (x8 : Vec Ideal S1x1 .f32) (x9 : Vec Ideal S64x64 .f32)
    (x10 : Vec Ideal S1x64 .f32) (r : Fin 2000) (j : Fin 64) :
    k0_pay2 (F := Ideal) (k0_pay3 x0) (k0_pay4 x0 x1 x2 x3 x4 x5 x6 x7) (k0_pay5 x8) x9 x10 (ix2 r j)
      = message (fun k j => x9 (ix2 k j)) (fun j => x10 (ix2 (0 : Fin 1) j)) (fun k => x0 (ix2 r k))
          (weight (fun k j => x3 (ix2 k j)) (fun k j => x4 (ix2 k j)) (fun j => x5 (ix2 (0 : Fin 1) j))
            (fun j => x6 (ix2 (0 : Fin 1) j)) (fun j => x7 (ix2 j (0 : Fin 1))) (x8 (ix2 (0 : Fin 1) (0 : Fin 1)))
            (fun k => x0 (ix2 r k)) (fun k => x1 (ix2 r k)) (x2 (ix2 r (0 : Fin 1)))) j := by
  unfold k0_pay2 k0_pay3
  simp only [shapeCast_self]
  simp only [mulf_apply, addf_apply]
  unfold Cert.EdgeSpec.message
  refine congrArg₂ (· * ·) (congrArg₂ (· + ·) ?_ ?_) ?_
  · exact mmA_sum _ _ r j
  · exact broadcastTo_1b_ab_apply x10 broadcasts_S1x64_S2000x64 r j
  · exact (Cert.LibKeepdims.broadcastTo_a1_ab_apply _ broadcasts_S2000x1_S2000x64 r j).trans
      (pay_weight x0 x1 x2 x3 x4 x5 x6 x7 x8 r (0 : Fin 1))

end Cert.KernelIdeal.Payload

end
-- ==== Proof.KernelBlocks.lean ====
/-
  From blocks to arrays. Each grid point `t` of the 800 stages rows `2000 t … 2000 t + 1999` of the three per-edge
  arrays (source rows, destination rows, lengths) and the whole of each parameter array, and writes back rows
  `2000 t … 2000 t + 1999` of the message array and of the weight array. Row `r` of what it writes is the
  specification's weight and message of edge `2000 t + r`; the 800 blocks tile the two arrays, so after the run
  each array is the specification's function of the staged arrays, edge by edge.
-/
import proofs.«419605_j38345468018707_1_alg».proof.Proof.Gen.KernelIdeal.Frame
import proofs.«419605_j38345468018707_1_alg».proof.Proof.KernelPayload
import proofs.«419605_j38345468018707_1_alg».proof.Proof.EdgeSpec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Payload Cert.EdgeSpec

/-! ## The two output arrays as functions of the staged arrays -/

/-- The weight of every edge: entry `(e, 0)` is the specification's weight of edge `e`'s rows. -/
def ewOf (A0 A1 : Vec Ideal S1600000x64 .f32) (A2 : Vec Ideal S1600000x1 .f32) (A3 A4 : Vec Ideal S64x64 .f32)
    (A5 A6 : Vec Ideal S1x64 .f32) (A7 : Vec Ideal S64x1 .f32) (A8 : Vec Ideal S1x1 .f32) : Vec Ideal S1600000x1 .f32 := fun i =>
  weight (fun k j => A3 (ix2 k j)) (fun k j => A4 (ix2 k j)) (fun j => A5 (ix2 (0 : Fin 1) j))
      (fun j => A6 (ix2 (0 : Fin 1) j)) (fun j => A7 (ix2 j (0 : Fin 1))) (A8 (ix2 (0 : Fin 1) (0 : Fin 1)))
    (fun k => A0 (ix2 (⟨(i 0).val, (i 0).isLt⟩ : Fin 1600000) k)) (fun k => A1 (ix2 (⟨(i 0).val, (i 0).isLt⟩ : Fin 1600000) k)) (A2 (ix2 (⟨(i 0).val, (i 0).isLt⟩ : Fin 1600000) (0 : Fin 1)))

/-- The message of every edge: entry `(e, j)` is the specification's message entry `j` of edge `e`. -/
def msgOf (A0 A1 : Vec Ideal S1600000x64 .f32) (A2 : Vec Ideal S1600000x1 .f32) (A3 A4 : Vec Ideal S64x64 .f32)
    (A5 A6 : Vec Ideal S1x64 .f32) (A7 : Vec Ideal S64x1 .f32) (A8 : Vec Ideal S1x1 .f32)
    (A9 : Vec Ideal S64x64 .f32) (A10 : Vec Ideal S1x64 .f32) : Vec Ideal S1600000x64 .f32 := fun i =>
  message (fun k j => A9 (ix2 k j)) (fun j => A10 (ix2 (0 : Fin 1) j))
    (fun k => A0 (ix2 (⟨(i 0).val, (i 0).isLt⟩ : Fin 1600000) k))
    (weight (fun k j => A3 (ix2 k j)) (fun k j => A4 (ix2 k j)) (fun j => A5 (ix2 (0 : Fin 1) j))
      (fun j => A6 (ix2 (0 : Fin 1) j)) (fun j => A7 (ix2 j (0 : Fin 1))) (A8 (ix2 (0 : Fin 1) (0 : Fin 1)))
      (fun k => A0 (ix2 (⟨(i 0).val, (i 0).isLt⟩ : Fin 1600000) k)) (fun k => A1 (ix2 (⟨(i 0).val, (i 0).isLt⟩ : Fin 1600000) k)) (A2 (ix2 (⟨(i 0).val, (i 0).isLt⟩ : Fin 1600000) (0 : Fin 1))))
    (⟨(i 1).val, (i 1).isLt⟩ : Fin 64)

/-! ## The body's stored values as functions of the block index -/

theorem pay12_fun (x0 x1 : Vec Ideal S2000x64 .f32) (x2 : Vec Ideal S2000x1 .f32) (x3 x4 : Vec Ideal S64x64 .f32)
    (x5 x6 : Vec Ideal S1x64 .f32) (x7 : Vec Ideal S64x1 .f32) (x8 : Vec Ideal S1x1 .f32) :
    k0_pay1 (F := Ideal) (k0_pay4 x0 x1 x2 x3 x4 x5 x6 x7) (k0_pay5 x8)
      = fun y : S2000x1.Idx => weight (fun k j => x3 (ix2 k j)) (fun k j => x4 (ix2 k j)) (fun j => x5 (ix2 (0 : Fin 1) j))
      (fun j => x6 (ix2 (0 : Fin 1) j)) (fun j => x7 (ix2 j (0 : Fin 1))) (x8 (ix2 (0 : Fin 1) (0 : Fin 1)))
          (fun k => x0 (ix2 (⟨(y 0).val, (y 0).isLt⟩ : Fin 2000) k)) (fun k => x1 (ix2 (⟨(y 0).val, (y 0).isLt⟩ : Fin 2000) k)) (x2 (ix2 (⟨(y 0).val, (y 0).isLt⟩ : Fin 2000) (0 : Fin 1))) := by
  funext y
  have hy : y = ix2 (⟨(y 0).val, (y 0).isLt⟩ : Fin 2000) (⟨(y 1).val, (y 1).isLt⟩ : Fin 1) :=
    funext fun a => by match a with | ⟨0, _⟩ => rfl | ⟨1, _⟩ => rfl
  exact (congrArg (k0_pay1 (F := Ideal) (k0_pay4 x0 x1 x2 x3 x4 x5 x6 x7) (k0_pay5 x8)) hy).trans
    (pay_weight x0 x1 x2 x3 x4 x5 x6 x7 x8 ⟨(y 0).val, (y 0).isLt⟩ ⟨(y 1).val, (y 1).isLt⟩)

theorem pay11_fun (x0 x1 : Vec Ideal S2000x64 .f32) (x2 : Vec Ideal S2000x1 .f32) (x3 x4 : Vec Ideal S64x64 .f32)
    (x5 x6 : Vec Ideal S1x64 .f32) (x7 : Vec Ideal S64x1 .f32) (x8 : Vec Ideal S1x1 .f32)
    (x9 : Vec Ideal S64x64 .f32) (x10 : Vec Ideal S1x64 .f32) :
    k0_pay2 (F := Ideal) (k0_pay3 x0) (k0_pay4 x0 x1 x2 x3 x4 x5 x6 x7) (k0_pay5 x8) x9 x10
      = fun y : S2000x64.Idx => message (fun k j => x9 (ix2 k j)) (fun j => x10 (ix2 (0 : Fin 1) j))
          (fun k => x0 (ix2 (⟨(y 0).val, (y 0).isLt⟩ : Fin 2000) k))
          (weight (fun k j => x3 (ix2 k j)) (fun k j => x4 (ix2 k j)) (fun j => x5 (ix2 (0 : Fin 1) j))
      (fun j => x6 (ix2 (0 : Fin 1) j)) (fun j => x7 (ix2 j (0 : Fin 1))) (x8 (ix2 (0 : Fin 1) (0 : Fin 1)))
            (fun k => x0 (ix2 (⟨(y 0).val, (y 0).isLt⟩ : Fin 2000) k)) (fun k => x1 (ix2 (⟨(y 0).val, (y 0).isLt⟩ : Fin 2000) k)) (x2 (ix2 (⟨(y 0).val, (y 0).isLt⟩ : Fin 2000) (0 : Fin 1))))
          (⟨(y 1).val, (y 1).isLt⟩ : Fin 64) := by
  funext y
  have hy : y = ix2 (⟨(y 0).val, (y 0).isLt⟩ : Fin 2000) (⟨(y 1).val, (y 1).isLt⟩ : Fin 64) :=
    funext fun a => by match a with | ⟨0, _⟩ => rfl | ⟨1, _⟩ => rfl
  exact (congrArg (k0_pay2 (F := Ideal) (k0_pay3 x0) (k0_pay4 x0 x1 x2 x3 x4 x5 x6 x7) (k0_pay5 x8) x9 x10) hy).trans
    (pay_message x0 x1 x2 x3 x4 x5 x6 x7 x8 x9 x10 ⟨(y 0).val, (y 0).isLt⟩ ⟨(y 1).val, (y 1).isLt⟩)

/-! ## A block of the specification is the specification of the blocks -/

/-- Row `y 0` of a block whose per-edge inputs are rows `2000 t + ·` of the arrays and whose parameters are the
    arrays themselves: the weight there is the array-level weight at row `2000 t + y 0`. -/
theorem ew_block (A0 A1 : Vec Ideal S1600000x64 .f32) (A2 : Vec Ideal S1600000x1 .f32) (A3 A4 : Vec Ideal S64x64 .f32)
    (A5 A6 : Vec Ideal S1x64 .f32) (A7 : Vec Ideal S64x1 .f32) (A8 : Vec Ideal S1x1 .f32)
    (x0 x1 : Vec Ideal S2000x64 .f32) (x2 : Vec Ideal S2000x1 .f32) (x3 x4 : Vec Ideal S64x64 .f32)
    (x5 x6 : Vec Ideal S1x64 .f32) (x7 : Vec Ideal S64x1 .f32) (x8 : Vec Ideal S1x1 .f32) (t : ℕ) (y : S2000x1.Idx) (i : S1600000x1.Idx)
    (hi : (i 0).val = 2000 * t + (y 0).val)
    (h0 : ∀ (x : S2000x64.Idx) (k : S1600000x64.Idx), (k 0).val = 2000 * t + (x 0).val → (k 1).val = (x 1).val → x0 x = A0 k)
    (h1 : ∀ (x : S2000x64.Idx) (k : S1600000x64.Idx), (k 0).val = 2000 * t + (x 0).val → (k 1).val = (x 1).val → x1 x = A1 k)
    (h2 : ∀ (x : S2000x1.Idx) (k : S1600000x1.Idx), (k 0).val = 2000 * t + (x 0).val → (k 1).val = (x 1).val → x2 x = A2 k)
    (h3 : x3 = A3) (h4 : x4 = A4) (h5 : x5 = A5) (h6 : x6 = A6) (h7 : x7 = A7) (h8 : x8 = A8) :
    weight (fun k j => x3 (ix2 k j)) (fun k j => x4 (ix2 k j)) (fun j => x5 (ix2 (0 : Fin 1) j))
      (fun j => x6 (ix2 (0 : Fin 1) j)) (fun j => x7 (ix2 j (0 : Fin 1))) (x8 (ix2 (0 : Fin 1) (0 : Fin 1)))
      (fun k => x0 (ix2 (⟨(y 0).val, (y 0).isLt⟩ : Fin 2000) k)) (fun k => x1 (ix2 (⟨(y 0).val, (y 0).isLt⟩ : Fin 2000) k)) (x2 (ix2 (⟨(y 0).val, (y 0).isLt⟩ : Fin 2000) (0 : Fin 1)))
      = ewOf A0 A1 A2 A3 A4 A5 A6 A7 A8 i := by
  subst h3 h4 h5 h6 h7 h8
  unfold ewOf
  have e0 : (fun k : Fin 64 => x0 (ix2 (⟨(y 0).val, (y 0).isLt⟩ : Fin 2000) k))
      = fun k : Fin 64 => A0 (ix2 (⟨(i 0).val, (i 0).isLt⟩ : Fin 1600000) k) :=
    funext fun k => h0 _ _ hi rfl
  have e1 : (fun k : Fin 64 => x1 (ix2 (⟨(y 0).val, (y 0).isLt⟩ : Fin 2000) k))
      = fun k : Fin 64 => A1 (ix2 (⟨(i 0).val, (i 0).isLt⟩ : Fin 1600000) k) :=
    funext fun k => h1 _ _ hi rfl
  have e2 : x2 (ix2 (⟨(y 0).val, (y 0).isLt⟩ : Fin 2000) (0 : Fin 1))
      = A2 (ix2 (⟨(i 0).val, (i 0).isLt⟩ : Fin 1600000) (0 : Fin 1)) := h2 _ _ hi rfl
  rw [e0, e1, e2]

/-- The same for a message entry. -/
theorem msg_block (A0 A1 : Vec Ideal S1600000x64 .f32) (A2 : Vec Ideal S1600000x1 .f32) (A3 A4 : Vec Ideal S64x64 .f32)
    (A5 A6 : Vec Ideal S1x64 .f32) (A7 : Vec Ideal S64x1 .f32) (A8 : Vec Ideal S1x1 .f32)
    (A9 : Vec Ideal S64x64 .f32) (A10 : Vec Ideal S1x64 .f32)
    (x0 x1 : Vec Ideal S2000x64 .f32) (x2 : Vec Ideal S2000x1 .f32) (x3 x4 : Vec Ideal S64x64 .f32)
    (x5 x6 : Vec Ideal S1x64 .f32) (x7 : Vec Ideal S64x1 .f32) (x8 : Vec Ideal S1x1 .f32) (x9 : Vec Ideal S64x64 .f32) (x10 : Vec Ideal S1x64 .f32)
    (t : ℕ) (y : S2000x64.Idx) (i : S1600000x64.Idx)
    (hi : (i 0).val = 2000 * t + (y 0).val) (hi1 : (i 1).val = (y 1).val)
    (h0 : ∀ (x : S2000x64.Idx) (k : S1600000x64.Idx), (k 0).val = 2000 * t + (x 0).val → (k 1).val = (x 1).val → x0 x = A0 k)
    (h1 : ∀ (x : S2000x64.Idx) (k : S1600000x64.Idx), (k 0).val = 2000 * t + (x 0).val → (k 1).val = (x 1).val → x1 x = A1 k)
    (h2 : ∀ (x : S2000x1.Idx) (k : S1600000x1.Idx), (k 0).val = 2000 * t + (x 0).val → (k 1).val = (x 1).val → x2 x = A2 k)
    (h3 : x3 = A3) (h4 : x4 = A4) (h5 : x5 = A5) (h6 : x6 = A6) (h7 : x7 = A7) (h8 : x8 = A8) (h9 : x9 = A9)
    (h10 : x10 = A10) :
    message (fun k j => x9 (ix2 k j)) (fun j => x10 (ix2 (0 : Fin 1) j))
        (fun k => x0 (ix2 (⟨(y 0).val, (y 0).isLt⟩ : Fin 2000) k))
        (weight (fun k j => x3 (ix2 k j)) (fun k j => x4 (ix2 k j)) (fun j => x5 (ix2 (0 : Fin 1) j))
      (fun j => x6 (ix2 (0 : Fin 1) j)) (fun j => x7 (ix2 j (0 : Fin 1))) (x8 (ix2 (0 : Fin 1) (0 : Fin 1)))
          (fun k => x0 (ix2 (⟨(y 0).val, (y 0).isLt⟩ : Fin 2000) k)) (fun k => x1 (ix2 (⟨(y 0).val, (y 0).isLt⟩ : Fin 2000) k)) (x2 (ix2 (⟨(y 0).val, (y 0).isLt⟩ : Fin 2000) (0 : Fin 1))))
        (⟨(y 1).val, (y 1).isLt⟩ : Fin 64)
      = msgOf A0 A1 A2 A3 A4 A5 A6 A7 A8 A9 A10 i := by
  subst h3 h4 h5 h6 h7 h8 h9 h10
  unfold msgOf
  have e0 : (fun k : Fin 64 => x0 (ix2 (⟨(y 0).val, (y 0).isLt⟩ : Fin 2000) k))
      = fun k : Fin 64 => A0 (ix2 (⟨(i 0).val, (i 0).isLt⟩ : Fin 1600000) k) :=
    funext fun k => h0 _ _ hi rfl
  have e1 : (fun k : Fin 64 => x1 (ix2 (⟨(y 0).val, (y 0).isLt⟩ : Fin 2000) k))
      = fun k : Fin 64 => A1 (ix2 (⟨(i 0).val, (i 0).isLt⟩ : Fin 1600000) k) :=
    funext fun k => h1 _ _ hi rfl
  have e2 : x2 (ix2 (⟨(y 0).val, (y 0).isLt⟩ : Fin 2000) (0 : Fin 1))
      = A2 (ix2 (⟨(i 0).val, (i 0).isLt⟩ : Fin 1600000) (0 : Fin 1)) := h2 _ _ hi rfl
  have ej : (⟨(y 1).val, (y 1).isLt⟩ : Fin 64) = ⟨(i 1).val, (i 1).isLt⟩ := Fin.ext hi1.symm
  rw [e0, e1, e2, ej]

/-! ## The launch side -/

theorem hz : (![0, 0] : Fin 2 → Nat) = fun _ => 0 := funext fun a => by fin_cases a <;> rfl

/-- The printed index maps, decided over the 800 points: the per-edge windows and the two outputs move one block of
    rows per point, the parameter windows stay at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

variable (m : (ℓ : Loc nD τ sig) → Buf (Elt Ideal) ℓ)

/-- Window 0's block at point `t`, read back off any array `A`: rows `2000 t … 2000 t + 1999` of `A`. -/
theorem read0_apply (A : Vec Ideal S1600000x64 .f32) (t : Fin cfg0.N) (x : S2000x64.Idx) (k : S1600000x64.Idx)
    (hk0 : (k 0).val = 2000 * t.val + (x 0).val) (hk1 : (k 1).val = (x 1).val) :
    ((cfg0.win 0).blk t).view.read (Elt Ideal) A x = A k := by
  obtain ⟨f0, f1, f2, f3, f4, f5, f6, f7, f8, f9, f10, f11, f12, f13, f14, f15, f16, f17, f18, f19, f20, f21, f22, f23, f24, f25⟩ := idx_facts t
  rw [View.read_apply]
  refine congrArg A (funext fun a => Fin.ext ?_)
  match a with
  | ⟨0, _⟩ => show win0_0.index t (0 : Fin 2) * 2000 + 1 * (x 0).val = (k 0).val; rw [f0, hk0]; omega
  | ⟨1, _⟩ => show win0_0.index t (1 : Fin 2) * 64 + 1 * (x 1).val = (k 1).val; rw [f1, hk1]; omega

theorem blk0_apply (c : Dev nD) (t : Fin cfg0.N) (x : S2000x64.Idx) (k : S1600000x64.Idx)
    (hk0 : (k 0).val = 2000 * t.val + (x 0).val) (hk1 : (k 1).val = (x 1).val) :
    (iblk m c 0 t : Vec Ideal S2000x64 .f32) x = (V m c main_v4 : Vec Ideal S1600000x64 .f32) k :=
  read0_apply (V m c main_v4) t x k hk0 hk1

/-- Window 1's block at point `t`, read back off any array `A`: rows `2000 t … 2000 t + 1999` of `A`. -/
theorem read1_apply (A : Vec Ideal S1600000x64 .f32) (t : Fin cfg0.N) (x : S2000x64.Idx) (k : S1600000x64.Idx)
    (hk0 : (k 0).val = 2000 * t.val + (x 0).val) (hk1 : (k 1).val = (x 1).val) :
    ((cfg0.win 1).blk t).view.read (Elt Ideal) A x = A k := by
  obtain ⟨f0, f1, f2, f3, f4, f5, f6, f7, f8, f9, f10, f11, f12, f13, f14, f15, f16, f17, f18, f19, f20, f21, f22, f23, f24, f25⟩ := idx_facts t
  rw [View.read_apply]
  refine congrArg A (funext fun a => Fin.ext ?_)
  match a with
  | ⟨0, _⟩ => show win0_1.index t (0 : Fin 2) * 2000 + 1 * (x 0).val = (k 0).val; rw [f2, hk0]; omega
  | ⟨1, _⟩ => show win0_1.index t (1 : Fin 2) * 64 + 1 * (x 1).val = (k 1).val; rw [f3, hk1]; omega

theorem blk1_apply (c : Dev nD) (t : Fin cfg0.N) (x : S2000x64.Idx) (k : S1600000x64.Idx)
    (hk0 : (k 0).val = 2000 * t.val + (x 0).val) (hk1 : (k 1).val = (x 1).val) :
    (iblk m c 1 t : Vec Ideal S2000x64 .f32) x = (V m c main_v5 : Vec Ideal S1600000x64 .f32) k :=
  read1_apply (V m c main_v5) t x k hk0 hk1

/-- Window 2's block at point `t`, read back off any array `A`: rows `2000 t … 2000 t + 1999` of `A`. -/
theorem read2_apply (A : Vec Ideal S1600000x1 .f32) (t : Fin cfg0.N) (x : S2000x1.Idx) (k : S1600000x1.Idx)
    (hk0 : (k 0).val = 2000 * t.val + (x 0).val) (hk1 : (k 1).val = (x 1).val) :
    ((cfg0.win 2).blk t).view.read (Elt Ideal) A x = A k := by
  obtain ⟨f0, f1, f2, f3, f4, f5, f6, f7, f8, f9, f10, f11, f12, f13, f14, f15, f16, f17, f18, f19, f20, f21, f22, f23, f24, f25⟩ := idx_facts t
  rw [View.read_apply]
  refine congrArg A (funext fun a => Fin.ext ?_)
  match a with
  | ⟨0, _⟩ => show win0_2.index t (0 : Fin 2) * 2000 + 1 * (x 0).val = (k 0).val; rw [f4, hk0]; omega
  | ⟨1, _⟩ => show win0_2.index t (1 : Fin 2) * 1 + 1 * (x 1).val = (k 1).val; rw [f5, hk1]; omega

theorem blk2_apply (c : Dev nD) (t : Fin cfg0.N) (x : S2000x1.Idx) (k : S1600000x1.Idx)
    (hk0 : (k 0).val = 2000 * t.val + (x 0).val) (hk1 : (k 1).val = (x 1).val) :
    (iblk m c 2 t : Vec Ideal S2000x1 .f32) x = (V m c main_v9 : Vec Ideal S1600000x1 .f32) k :=
  read2_apply (V m c main_v9) t x k hk0 hk1

/-- Window 3's block at every point, read back off any array `A`, is `A` whole. -/
theorem read3_eq (A : Vec Ideal S64x64 .f32) (t : Fin cfg0.N) :
    ((cfg0.win 3).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_3.index t (0 : Fin 2) * 64 + 1 * (x 0).val = (x 0).val; rw [f6]; omega
  | ⟨1, _⟩ => show win0_3.index t (1 : Fin 2) * 64 + 1 * (x 1).val = (x 1).val; rw [f7]; omega

theorem blk3_eq (c : Dev nD) (t : Fin cfg0.N) :
    (iblk m c 3 t : Vec Ideal S64x64 .f32) = (V m c main_v10 : Vec Ideal S64x64 .f32) :=
  read3_eq (V m c main_v10) t

/-- Window 4's block at every point, read back off any array `A`, is `A` whole. -/
theorem read4_eq (A : Vec Ideal S64x64 .f32) (t : Fin cfg0.N) :
    ((cfg0.win 4).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_4.index t (0 : Fin 2) * 64 + 1 * (x 0).val = (x 0).val; rw [f8]; omega
  | ⟨1, _⟩ => show win0_4.index t (1 : Fin 2) * 64 + 1 * (x 1).val = (x 1).val; rw [f9]; omega

theorem blk4_eq (c : Dev nD) (t : Fin cfg0.N) :
    (iblk m c 4 t : Vec Ideal S64x64 .f32) = (V m c main_v11 : Vec Ideal S64x64 .f32) :=
  read4_eq (V m c main_v11) t

/-- Window 5's block at every point, read back off any array `A`, is `A` whole. -/
theorem read5_eq (A : Vec Ideal S1x64 .f32) (t : Fin cfg0.N) :
    ((cfg0.win 5).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_5.index t (0 : Fin 2) * 1 + 1 * (x 0).val = (x 0).val; rw [f10]; omega
  | ⟨1, _⟩ => show win0_5.index t (1 : Fin 2) * 64 + 1 * (x 1).val = (x 1).val; rw [f11]; omega

theorem blk5_eq (c : Dev nD) (t : Fin cfg0.N) :
    (iblk m c 5 t : Vec Ideal S1x64 .f32) = (V m c main_v12 : Vec Ideal S1x64 .f32) :=
  read5_eq (V m c main_v12) t

/-- Window 6's block at every point, read back off any array `A`, is `A` whole. -/
theorem read6_eq (A : Vec Ideal S1x64 .f32) (t : Fin cfg0.N) :
    ((cfg0.win 6).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_6.index t (0 : Fin 2) * 1 + 1 * (x 0).val = (x 0).val; rw [f12]; omega
  | ⟨1, _⟩ => show win0_6.index t (1 : Fin 2) * 64 + 1 * (x 1).val = (x 1).val; rw [f13]; omega

theorem blk6_eq (c : Dev nD) (t : Fin cfg0.N) :
    (iblk m c 6 t : Vec Ideal S1x64 .f32) = (V m c main_v13 : Vec Ideal S1x64 .f32) :=
  read6_eq (V m c main_v13) t

/-- Window 7's block at every point, read back off any array `A`, is `A` whole. -/
theorem read7_eq (A : Vec Ideal S64x1 .f32) (t : Fin cfg0.N) :
    ((cfg0.win 7).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_7.index t (0 : Fin 2) * 64 + 1 * (x 0).val = (x 0).val; rw [f14]; omega
  | ⟨1, _⟩ => show win0_7.index t (1 : Fin 2) * 1 + 1 * (x 1).val = (x 1).val; rw [f15]; omega

theorem blk7_eq (c : Dev nD) (t : Fin cfg0.N) :
    (iblk m c 7 t : Vec Ideal S64x1 .f32) = (V m c main_arg5 : Vec Ideal S64x1 .f32) :=
  read7_eq (V m c main_arg5) t

/-- Window 8's block at every point, read back off any array `A`, is `A` whole. -/
theorem read8_eq (A : Vec Ideal S1x1 .f32) (t : Fin cfg0.N) :
    ((cfg0.win 8).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_8.index t (0 : Fin 2) * 1 + 1 * (x 0).val = (x 0).val; rw [f16]; omega
  | ⟨1, _⟩ => show win0_8.index t (1 : Fin 2) * 1 + 1 * (x 1).val = (x 1).val; rw [f17]; omega

theorem blk8_eq (c : Dev nD) (t : Fin cfg0.N) :
    (iblk m c 8 t : Vec Ideal S1x1 .f32) = (V m c main_v14 : Vec Ideal S1x1 .f32) :=
  read8_eq (V m c main_v14) t

/-- Window 9's block at every point, read back off any array `A`, is `A` whole. -/
theorem read9_eq (A : Vec Ideal S64x64 .f32) (t : Fin cfg0.N) :
    ((cfg0.win 9).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_9.index t (0 : Fin 2) * 64 + 1 * (x 0).val = (x 0).val; rw [f18]; omega
  | ⟨1, _⟩ => show win0_9.index t (1 : Fin 2) * 64 + 1 * (x 1).val = (x 1).val; rw [f19]; omega

theorem blk9_eq (c : Dev nD) (t : Fin cfg0.N) :
    (iblk m c 9 t : Vec Ideal S64x64 .f32) = (V m c main_arg7 : Vec Ideal S64x64 .f32) :=
  read9_eq (V m c main_arg7) t

/-- Window 10's block at every point, read back off any array `A`, is `A` whole. -/
theorem read10_eq (A : Vec Ideal S1x64 .f32) (t : Fin cfg0.N) :
    ((cfg0.win 10).blk t).view.read (Elt Ideal) A = A := by
  obtain ⟨f0, f1, f2, f3, f4, f5, f6, f7, f8, f9, f10, f11, f12, f13, f14, f15, f16, f17, f18, f19, f20, f21, f22, f23, f24, f25⟩ := idx_facts t
  funext x
  rw [View.read_apply]
  refine congrArg A (funext fun a => Fin.ext ?_)
  match a with
  | ⟨0, _⟩ => show win0_10.index t (0 : Fin 2) * 1 + 1 * (x 0).val = (x 0).val; rw [f20]; omega
  | ⟨1, _⟩ => show win0_10.index t (1 : Fin 2) * 64 + 1 * (x 1).val = (x 1).val; rw [f21]; omega

theorem blk10_eq (c : Dev nD) (t : Fin cfg0.N) :
    (iblk m c 10 t : Vec Ideal S1x64 .f32) = (V m c main_v15 : Vec Ideal S1x64 .f32) :=
  read10_eq (V m c main_v15) t

/-! ## What a point writes back -/

/-- A block function `P` that agrees with an array `G` along rows `2000 t + ·` is block `t` of `G` as window 12 writes it back. -/
theorem flushed12_of (G : Vec Ideal S1600000x1 .f32) (P : Vec Ideal S2000x1 .f32) (t : Fin cfg0.N)
    (h : ∀ (y : S2000x1.Idx) (i : S1600000x1.Idx), (i 0).val = 2000 * t.val + (y 0).val → (i 1).val = (y 1).val → P y = G i) :
    (cfg0.win 12).cut (grid0.coords t) P = ((cfg0.win 12).blk t).view.read (Elt Ideal) G := by
  obtain ⟨f0, f1, f2, f3, f4, f5, f6, f7, f8, f9, f10, f11, f12, f13, f14, f15, f16, f17, f18, f19, f20, f21, f22, f23, f24, f25⟩ := idx_facts t
  funext y
  rw [View.read_apply]
  exact h ((cfg0.win 12).xinj (grid0.coords t) y) (((cfg0.win 12).blk t).view.emb y)
    (by show win0_12.index t (0 : Fin 2) * 2000 + 1 * (y 0).val = 2000 * t.val + (y 0).val; rw [f24]; omega)
    (by show win0_12.index t (1 : Fin 2) * 1 + 1 * (y 1).val = (y 1).val; rw [f25]; omega)

/-- A block function `P` that agrees with an array `G` along rows `2000 t + ·` is block `t` of `G` as window 11 writes it back. -/
theorem flushed11_of (G : Vec Ideal S1600000x64 .f32) (P : Vec Ideal S2000x64 .f32) (t : Fin cfg0.N)
    (h : ∀ (y : S2000x64.Idx) (i : S1600000x64.Idx), (i 0).val = 2000 * t.val + (y 0).val → (i 1).val = (y 1).val → P y = G i) :
    (cfg0.win 11).cut (grid0.coords t) P = ((cfg0.win 11).blk t).view.read (Elt Ideal) G := by
  obtain ⟨f0, f1, f2, f3, f4, f5, f6, f7, f8, f9, f10, f11, f12, f13, f14, f15, f16, f17, f18, f19, f20, f21, f22, f23, f24, f25⟩ := idx_facts t
  funext y
  rw [View.read_apply]
  exact h ((cfg0.win 11).xinj (grid0.coords t) y) (((cfg0.win 11).blk t).view.emb y)
    (by show win0_11.index t (0 : Fin 2) * 2000 + 1 * (y 0).val = 2000 * t.val + (y 0).val; rw [f22]; omega)
    (by show win0_11.index t (1 : Fin 2) * 64 + 1 * (y 1).val = (y 1).val; rw [f23]; omega)

/-- Point `t` writes back block `t` of the weight array. -/
theorem flushed12_eq (c : Dev nD) (t : Fin cfg0.N) :
    (dats m 0 c).flushed 12 t
      = ((cfg0.win 12).blk t).view.read (Elt Ideal) (ewOf (V m c main_v4) (V m c main_v5) (V m c main_v9) (V m c main_v10) (V m c main_v11) (V m c main_v12) (V m c main_v13) (V m c main_arg5) (V m c main_v14)) := by
  show (cfg0.win 12).cut (grid0.coords t) ((dats m 0 c).after 12 t) = _
  rw [after0_12]
  unfold out0_12
  rw [View.canon_unit_zero hz]
  simp only [View.ld_unit_zero (S := S2000x64) hz, View.ld_unit_zero (S := S2000x1) hz, View.ld_unit_zero (S := S64x64) hz,
    View.ld_unit_zero (S := S1x64) hz, View.ld_unit_zero (S := S64x1) hz, View.ld_unit_zero (S := S1x1) hz]
  rw [pay12_fun (iblk m c 0 t) (iblk m c 1 t) (iblk m c 2 t) (iblk m c 3 t) (iblk m c 4 t) (iblk m c 5 t) (iblk m c 6 t) (iblk m c 7 t) (iblk m c 8 t)]
  exact flushed12_of (ewOf (V m c main_v4) (V m c main_v5) (V m c main_v9) (V m c main_v10) (V m c main_v11) (V m c main_v12) (V m c main_v13) (V m c main_arg5) (V m c main_v14)) _ t fun y i hi0 hi1 =>
    ew_block (V m c main_v4) (V m c main_v5) (V m c main_v9) (V m c main_v10) (V m c main_v11) (V m c main_v12) (V m c main_v13) (V m c main_arg5) (V m c main_v14)
      (iblk m c 0 t) (iblk m c 1 t) (iblk m c 2 t) (iblk m c 3 t) (iblk m c 4 t) (iblk m c 5 t) (iblk m c 6 t) (iblk m c 7 t) (iblk m c 8 t) t.val y i hi0
      (fun x k hk0 hk1 => blk0_apply m c t x k hk0 hk1) (fun x k hk0 hk1 => blk1_apply m c t x k hk0 hk1)
      (fun x k hk0 hk1 => blk2_apply m c t x k hk0 hk1)
      (blk3_eq m c t) (blk4_eq m c t) (blk5_eq m c t) (blk6_eq m c t) (blk7_eq m c t) (blk8_eq m c t)

/-- Point `t` writes back block `t` of the message array. -/
theorem flushed11_eq (c : Dev nD) (t : Fin cfg0.N) :
    (dats m 0 c).flushed 11 t
      = ((cfg0.win 11).blk t).view.read (Elt Ideal) (msgOf (V m c main_v4) (V m c main_v5) (V m c main_v9) (V m c main_v10) (V m c main_v11) (V m c main_v12) (V m c main_v13) (V m c main_arg5) (V m c main_v14) (V m c main_arg7) (V m c main_v15)) := by
  show (cfg0.win 11).cut (grid0.coords t) ((dats m 0 c).after 11 t) = _
  rw [after0_11]
  unfold out0_11
  rw [View.canon_unit_zero hz]
  simp only [View.ld_unit_zero (S := S2000x64) hz, View.ld_unit_zero (S := S2000x1) hz, View.ld_unit_zero (S := S64x64) hz,
    View.ld_unit_zero (S := S1x64) hz, View.ld_unit_zero (S := S64x1) hz, View.ld_unit_zero (S := S1x1) hz]
  rw [pay11_fun (iblk m c 0 t) (iblk m c 1 t) (iblk m c 2 t) (iblk m c 3 t) (iblk m c 4 t) (iblk m c 5 t) (iblk m c 6 t) (iblk m c 7 t) (iblk m c 8 t) (iblk m c 9 t) (iblk m c 10 t)]
  exact flushed11_of (msgOf (V m c main_v4) (V m c main_v5) (V m c main_v9) (V m c main_v10) (V m c main_v11) (V m c main_v12) (V m c main_v13) (V m c main_arg5) (V m c main_v14) (V m c main_arg7) (V m c main_v15)) _ t fun y i hi0 hi1 =>
    msg_block (V m c main_v4) (V m c main_v5) (V m c main_v9) (V m c main_v10) (V m c main_v11) (V m c main_v12) (V m c main_v13) (V m c main_arg5) (V m c main_v14) (V m c main_arg7) (V m c main_v15)
      (iblk m c 0 t) (iblk m c 1 t) (iblk m c 2 t) (iblk m c 3 t) (iblk m c 4 t) (iblk m c 5 t) (iblk m c 6 t) (iblk m c 7 t) (iblk m c 8 t) (iblk m c 9 t) (iblk m c 10 t) t.val y i hi0 hi1
      (fun x k hk0 hk1 => blk0_apply m c t x k hk0 hk1) (fun x k hk0 hk1 => blk1_apply m c t x k hk0 hk1)
      (fun x k hk0 hk1 => blk2_apply m c t x k hk0 hk1)
      (blk3_eq m c t) (blk4_eq m c t) (blk5_eq m c t) (blk6_eq m c t) (blk7_eq m c t) (blk8_eq m c t)
      (blk9_eq m c t) (blk10_eq m c t)

/-! ## The cover, and the arrays after the run -/

/-- An index of the weight array is in point `t`'s block iff its row is one of `2000 t … 2000 t + 1999`. -/
theorem mem_blk12 (t : Fin cfg0.N) (i : S1600000x1.Idx) :
    i ∈ ((cfg0.win 12).blk t).view.set ↔ ∀ a : Fin 2, win0_12.index t a * S2000x1.size a ≤ (i a).val ∧ (i a).val < win0_12.index t a * S2000x1.size a + S2000x1.size a := by
  show i ∈ ((View.whole main_v16_1).slice (win0_12.rect t)).set ↔ _
  rw [View.set_slice_whole, Rect.mem_set_unit]
  exact Iff.rfl

theorem mem_blk11 (t : Fin cfg0.N) (i : S1600000x64.Idx) :
    i ∈ ((cfg0.win 11).blk t).view.set ↔ ∀ a : Fin 2, win0_11.index t a * S2000x64.size a ≤ (i a).val ∧ (i a).val < win0_11.index t a * S2000x64.size a + S2000x64.size a := by
  show i ∈ ((View.whole main_v16_0).slice (win0_11.rect t)).set ↔ _
  rw [View.set_slice_whole, Rect.mem_set_unit]
  exact Iff.rfl

/-- Row `e` lies in the block of point `e / 2000`. -/
theorem cover12 (i : S1600000x1.Idx) : ∃ t : Fin cfg0.N, (cfg0.win 12).flush t = true ∧ i ∈ ((cfg0.win 12).blk t).view.set := by
  have hi0 : (i 0).val < 1600000 := (i 0).isLt
  have hi1 : (i 1).val < 1 := (i 1).isLt
  have hN : cfg0.N = 800 := N_0
  let t : Fin cfg0.N := ⟨(i 0).val / 2000, by rw [hN]; omega⟩
  obtain ⟨f0, f1, f2, f3, f4, f5, f6, f7, f8, f9, f10, f11, f12, f13, f14, f15, f16, f17, f18, f19, f20, f21, f22, f23, f24, f25⟩ := idx_facts t
  refine ⟨t, flush0_12 t, ?_⟩
  rw [mem_blk12]
  intro a
  have ht : t.val = (i 0).val / 2000 := rfl
  match a with
  | ⟨0, _⟩ => show win0_12.index t (0 : Fin 2) * 2000 ≤ (i 0).val ∧ (i 0).val < win0_12.index t (0 : Fin 2) * 2000 + 2000; rw [f24]; omega
  | ⟨1, _⟩ => show win0_12.index t (1 : Fin 2) * 1 ≤ (i 1).val ∧ (i 1).val < win0_12.index t (1 : Fin 2) * 1 + 1; rw [f25]; omega

theorem cover11 (i : S1600000x64.Idx) : ∃ t : Fin cfg0.N, (cfg0.win 11).flush t = true ∧ i ∈ ((cfg0.win 11).blk t).view.set := by
  have hi0 : (i 0).val < 1600000 := (i 0).isLt
  have hi1 : (i 1).val < 64 := (i 1).isLt
  have hN : cfg0.N = 800 := N_0
  let t : Fin cfg0.N := ⟨(i 0).val / 2000, by rw [hN]; omega⟩
  obtain ⟨f0, f1, f2, f3, f4, f5, f6, f7, f8, f9, f10, f11, f12, f13, f14, f15, f16, f17, f18, f19, f20, f21, f22, f23, f24, f25⟩ := idx_facts t
  refine ⟨t, flush0_11 t, ?_⟩
  rw [mem_blk11]
  intro a
  have ht : t.val = (i 0).val / 2000 := rfl
  match a with
  | ⟨0, _⟩ => show win0_11.index t (0 : Fin 2) * 2000 ≤ (i 0).val ∧ (i 0).val < win0_11.index t (0 : Fin 2) * 2000 + 2000; rw [f22]; omega
  | ⟨1, _⟩ => show win0_11.index t (1 : Fin 2) * 64 ≤ (i 1).val ∧ (i 1).val < win0_11.index t (1 : Fin 2) * 64 + 64; rw [f23]; omega

/-- THE WEIGHT ARRAY after the run: every edge's weight. -/
theorem final12 (c : Dev nD) :
    (dats m 0 c).arrAt 12 cfg0.N = ewOf (V m c main_v4) (V m c main_v5) (V m c main_v9) (V m c main_v10) (V m c main_v11) (V m c main_v12) (V m c main_v13) (V m c main_arg5) (V m c main_v14) :=
  (dats m 0 c).arrAt_eq_of_cover 12 _ (fun t _ => flushed12_eq m c t) cover12

/-- THE MESSAGE ARRAY after the run: every edge's message. -/
theorem final11 (c : Dev nD) :
    (dats m 0 c).arrAt 11 cfg0.N = msgOf (V m c main_v4) (V m c main_v5) (V m c main_v9) (V m c main_v10) (V m c main_v11) (V m c main_v12) (V m c main_v13) (V m c main_arg5) (V m c main_v14) (V m c main_arg7) (V m c main_v15) :=
  (dats m 0 c).arrAt_eq_of_cover 11 _ (fun t _ => flushed11_eq m c t) cover11

end Cert.KernelIdeal.Blocks

end
-- ==== Proof.HostTerms.lean ====
/-
  The arrays the kernel's program computes before its region, as pure terms of the argument arrays.

  The edge list's two rows are the source and destination node numbers. A row `v` becomes a column of start indices
  `wrapCol v` (a negative number is moved up by the node count, as jnp indexing does). `takeRows` / `takePos` is
  jnp's `take` with its default out-of-range rule: the rows gathered at the start indices where the index is inside
  `[0, 99999]`, and the fill value elsewhere. `lenOf` is the Euclidean norm of the difference of two position arrays,
  row by row, kept as a column.
-/
import proofs.«419605_j38345468018707_1_alg».proof.KernelIdeal
import proofs.«419605_j38345468018707_1_alg».proof.Proof.Gen.KernelIdeal
import Idealize.ShloMosaic.PureOps.Ideal

noncomputable section

namespace Cert.KernelIdeal.HostTerms

open Idealize.ShloMosaic Cert.KernelIdeal Cert.KernelIdeal.Facts₀ Cert.KernelIdeal.Facts

/-- Row 0 of the edge list: the source node of every edge. -/
def srcVec (a1 : IVec S2x1600000 32) : IVec S1600000 32 :=
  shapeCast S1600000 (extractStridedSlice S1x1600000 ![0, 0] a1 slices_S2x1600000_S1x1600000_0_0) shapeCasts_S1x1600000_S1600000

/-- Row 1 of the edge list: the destination node of every edge. -/
def dstVec (a1 : IVec S2x1600000 32) : IVec S1600000 32 :=
  shapeCast S1600000 (extractStridedSlice S1x1600000 ![1, 0] a1 slices_S2x1600000_S1x1600000_1_0) shapeCasts_S1x1600000_S1600000

/-- Node numbers as a column of start indices, a negative one moved up by the node count. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Per edge: is the start index inside `[0, 99999]`? -/
def inRange (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- `take` of feature rows: the gathered row where the index is in range, the fill value elsewhere. -/
def takeRows (X : FVec Ideal S100000x64 .f32) (v : IVec S1600000 32) : FVec Ideal S1600000x64 .f32 :=
  select (broadcastInDim S1600000x64 ![0] bcast_S1600000_S1600000x64_0 (inRange (wrapCol v)))
    (Host.gather gather_S100000x64_S1600000x1_S1600000x64_1_0_n_n_0_1_164 X (wrapCol v))
    (broadcastInDim S1600000x64 ![] bcast_S_S1600000x64 (constant S_ .f32 0x7FC00000#32))

/-- `take` of position rows. -/
def takePos (X : FVec Ideal S100000x3 .f32) (v : IVec S1600000 32) : FVec Ideal S1600000x3 .f32 :=
  select (broadcastInDim S1600000x3 ![0] bcast_S1600000_S1600000x3_0 (inRange (wrapCol v)))
    (Host.gather gather_S100000x3_S1600000x1_S1600000x3_1_0_n_n_0_1_13 X (wrapCol v))
    (broadcastInDim S1600000x3 ![] bcast_S_S1600000x3 (constant S_ .f32 0x7FC00000#32))

/-- The length of every edge: the norm of `pd − ps` row by row, as a column. -/
def lenOf (pd ps : FVec Ideal S1600000x3 .f32) : FVec Ideal S1600000x1 .f32 :=
  Host.sqrt (broadcastInDim S1600000x1 ![0] bcast_S1600000_S1600000x1_0
    (Host.reduceAdd (mulf (subf pd ps) (subf pd ps)) (constant S_ .f32 0x00000000#32) reducesTo_S1600000x3_S1600000_d1 h_S_))

/-- Rows 0–63 of the first layer's weights: the rows that meet the source features. -/
def w1a (a3 : FVec Ideal S129x64 .f32) : FVec Ideal S64x64 .f32 := extractStridedSlice S64x64 ![0, 0] a3 slices_S129x64_S64x64_0_0

/-- Rows 64–127: the rows that meet the destination features. -/
def w1b (a3 : FVec Ideal S129x64 .f32) : FVec Ideal S64x64 .f32 := extractStridedSlice S64x64 ![64, 0] a3 slices_S129x64_S64x64_64_0

/-- Row 128: the row that meets the edge length. -/
def w1c (a3 : FVec Ideal S129x64 .f32) : FVec Ideal S1x64 .f32 := extractStridedSlice S1x64 ![128, 0] a3 slices_S129x64_S1x64_128_0

/-- A 64-vector as a row. -/
def rowOf (a : FVec Ideal S64 .f32) : FVec Ideal S1x64 .f32 := shapeCast S1x64 a shapeCasts_S64_S1x64

/-- A 1-vector as a 1×1 matrix. -/
def oneOf (a : FVec Ideal S1 .f32) : FVec Ideal S1x1 .f32 := shapeCast S1x1 a shapeCasts_S1_S1x1

end Cert.KernelIdeal.HostTerms

end
-- ==== Proof.LibTRef.lean ====
/-
  A typed reference carries a buffer together with the fact that the buffer's type is the value's. Contents are moved
  to the buffer's own type and back along that fact; moving there and back changes nothing. Stated for any typed
  reference, so that such pairs can be removed from a term by rewriting, without comparing the terms they wrap.
-/
import Idealize.ShloMosaic.Lib.StableHlo

namespace Idealize.ShloMosaic.StableHlo.TRef

open Idealize.ShloMosaic

variable {sig : RefSig} {T : BufTy} {Val : EltTy → Type}

/-- Contents carried to a buffer's own type and back are unchanged. -/
theorem ofBuf_toBuf (x : TRef sig T) (v : T.Contents Val) : x.ofBuf (x.toBuf v) = v := by
  obtain ⟨r, h, h2, h3⟩ := x
  subst h
  rfl

/-- Contents of a buffer carried to the value's type and back are unchanged. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.HostVals.lean ====
/-
  What each array the region stages holds when the region is entered, as a pure term of the argument arrays.
-/
import proofs.«419605_j38345468018707_1_alg».proof.Proof.Gen.KernelIdeal.Frame
import proofs.«419605_j38345468018707_1_alg».proof.Proof.HostTerms
import proofs.«419605_j38345468018707_1_alg».proof.Proof.LibTRef
import Idealize.ShloMosaic.Lib.StableHlo.Run
import Idealize.ShloMosaic.PureOps.Ideal

set_option maxRecDepth 16384

noncomputable section

namespace Cert.KernelIdeal.HostVals

open Idealize.ShloMosaic Idealize.ShloMosaic.TcCoe Idealize.SL.Sem Idealize.ShloMosaic.StableHlo
open Cert.KernelIdeal Cert.KernelIdeal.Gen Cert.KernelIdeal.HostTerms

/-! ## What each stretch of operations writes, and what it therefore keeps -/

/-- The references stretch 0 writes. -/
private abbrev W0 : List (Ref sig .tc) := [main_v0, main_v1, main_v2, main_v3]
private theorem writes0 : (hostOps0 : List (HloOp τ sig (Elt Ideal))).Forall fun op => op.writes ⊆ (W0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 0 does not write holds after it what it held before. -/
private theorem keep0 (G : Valuation τ sig (Elt Ideal)) {r : Ref sig .tc} (h : r ∉ W0) :
    StableHlo.after (hostOps0 (F := Ideal)) G (Proc.devRef .tc r) = G (Proc.devRef .tc r) :=
  StableHlo.after_of_writes_sub hostOps0 G writes0 h

/-- The references stretch 1 writes. -/
private abbrev W1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private theorem writes1 : (hostOps0_1 : List (HloOp τ sig (Elt Ideal))).Forall fun op => op.writes ⊆ (W1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 1 does not write holds after it what it held before. -/
private theorem keep1 (G : Valuation τ sig (Elt Ideal)) {r : Ref sig .tc} (h : r ∉ W1) :
    StableHlo.after (hostOps0_1 (F := Ideal)) G (Proc.devRef .tc r) = G (Proc.devRef .tc r) :=
  StableHlo.after_of_writes_sub hostOps0_1 G writes1 h

/-- The references stretch 2 writes. -/
private abbrev W2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private theorem writes2 : (hostOps0_2 : List (HloOp τ sig (Elt Ideal))).Forall fun op => op.writes ⊆ (W2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 2 does not write holds after it what it held before. -/
private theorem keep2 (G : Valuation τ sig (Elt Ideal)) {r : Ref sig .tc} (h : r ∉ W2) :
    StableHlo.after (hostOps0_2 (F := Ideal)) G (Proc.devRef .tc r) = G (Proc.devRef .tc r) :=
  StableHlo.after_of_writes_sub hostOps0_2 G writes2 h

/-- The references stretch 3 writes. -/
private abbrev W3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
private theorem writes3 : (hostOps0_3 : List (HloOp τ sig (Elt Ideal))).Forall fun op => op.writes ⊆ (W3.map (Proc.devRef (τ := τ) .tc)).toFinset := by
  simp only [hostOps0_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 3 does not write holds after it what it held before. -/
private theorem keep3 (G : Valuation τ sig (Elt Ideal)) {r : Ref sig .tc} (h : r ∉ W3) :
    StableHlo.after (hostOps0_3 (F := Ideal)) G (Proc.devRef .tc r) = G (Proc.devRef .tc r) :=
  StableHlo.after_of_writes_sub hostOps0_3 G writes3 h

/-- The references stretch 4 writes. -/
private abbrev W4 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
private theorem writes4 : (hostOps0_4 : List (HloOp τ sig (Elt Ideal))).Forall fun op => op.writes ⊆ (W4.map (Proc.devRef (τ := τ) .tc)).toFinset := by
  simp only [hostOps0_4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 4 does not write holds after it what it held before. -/
private theorem keep4 (G : Valuation τ sig (Elt Ideal)) {r : Ref sig .tc} (h : r ∉ W4) :
    StableHlo.after (hostOps0_4 (F := Ideal)) G (Proc.devRef .tc r) = G (Proc.devRef .tc r) :=
  StableHlo.after_of_writes_sub hostOps0_4 G writes4 h

/-- The references stretch 5 writes. -/
private abbrev W5 : List (Ref sig .tc) := [main_v8]
private theorem writes5 : (hostOps0_5 : List (HloOp τ sig (Elt Ideal))).Forall fun op => op.writes ⊆ (W5.map (Proc.devRef (τ := τ) .tc)).toFinset := by
  simp only [hostOps0_5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 5 does not write holds after it what it held before. -/
private theorem keep5 (G : Valuation τ sig (Elt Ideal)) {r : Ref sig .tc} (h : r ∉ W5) :
    StableHlo.after (hostOps0_5 (F := Ideal)) G (Proc.devRef .tc r) = G (Proc.devRef .tc r) :=
  StableHlo.after_of_writes_sub hostOps0_5 G writes5 h

/-- The references stretch 6 writes. -/
private abbrev W6 : List (Ref sig .tc) := [main_call4_v0, main_call4_cst, main_call4_v1, main_call4_v2, main_v9]
private theorem writes6 : (hostOps0_6 : List (HloOp τ sig (Elt Ideal))).Forall fun op => op.writes ⊆ (W6.map (Proc.devRef (τ := τ) .tc)).toFinset := by
  simp only [hostOps0_6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 6 does not write holds after it what it held before. -/
private theorem keep6 (G : Valuation τ sig (Elt Ideal)) {r : Ref sig .tc} (h : r ∉ W6) :
    StableHlo.after (hostOps0_6 (F := Ideal)) G (Proc.devRef .tc r) = G (Proc.devRef .tc r) :=
  StableHlo.after_of_writes_sub hostOps0_6 G writes6 h

/-- The references stretch 7 writes. -/
private abbrev W7 : List (Ref sig .tc) := [main_v10, main_v11, main_v12, main_v13, main_v14, main_v15]
private theorem writes7 : (hostOps0_7 : List (HloOp τ sig (Elt Ideal))).Forall fun op => op.writes ⊆ (W7.map (Proc.devRef (τ := τ) .tc)).toFinset := by
  simp only [hostOps0_7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference stretch 7 does not write holds after it what it held before. -/
private theorem keep7 (G : Valuation τ sig (Elt Ideal)) {r : Ref sig .tc} (h : r ∉ W7) :
    StableHlo.after (hostOps0_7 (F := Ideal)) G (Proc.devRef .tc r) = G (Proc.devRef .tc r) :=
  StableHlo.after_of_writes_sub hostOps0_7 G writes7 h

/-! ## What each stretch computes, from any contents before it -/

/-- The first stretch leaves row 0 of the edge list in `main_v1`. -/
private theorem s0_v1 (G : Valuation τ sig (Elt Ideal)) :
    (StableHlo.after (hostOps0 (F := Ideal)) G (Proc.devRef .tc main_v1) : IVec S1600000 32)
      = srcVec (G (Proc.devRef .tc main_arg1)) := by
  after_results_simp
  rfl

/-- The first stretch leaves row 1 of the edge list in `main_v3`. -/
private theorem s0_v3 (G : Valuation τ sig (Elt Ideal)) :
    (StableHlo.after (hostOps0 (F := Ideal)) G (Proc.devRef .tc main_v3) : IVec S1600000 32)
      = dstVec (G (Proc.devRef .tc main_arg1)) := by
  after_results_simp
  rfl

set_option maxHeartbeats 4000000 in
/-- The first `take`: the feature rows at the node numbers in `main_v1`. -/
private theorem s1_v4 (G : Valuation τ sig (Elt Ideal)) :
    (StableHlo.after (hostOps0_1 (F := Ideal)) G (Proc.devRef .tc main_v4) : FVec Ideal S1600000x64 .f32)
      = takeRows (G (Proc.devRef .tc main_arg0)) (G (Proc.devRef .tc main_v1)) := by
  after_results_simp
  simp only [StableHlo.TRef.ofBuf_toBuf]
  simp only [StableHlo.TRef.toBuf, StableHlo.TRef.ofBuf, cast_eq]
  rfl

set_option maxHeartbeats 4000000 in
/-- The second `take`: the feature rows at the node numbers in `main_v3`. -/
private theorem s2_v5 (G : Valuation τ sig (Elt Ideal)) :
    (StableHlo.after (hostOps0_2 (F := Ideal)) G (Proc.devRef .tc main_v5) : FVec Ideal S1600000x64 .f32)
      = takeRows (G (Proc.devRef .tc main_arg0)) (G (Proc.devRef .tc main_v3)) := by
  after_results_simp
  simp only [StableHlo.TRef.ofBuf_toBuf]
  simp only [StableHlo.TRef.toBuf, StableHlo.TRef.ofBuf, cast_eq]
  rfl

set_option maxHeartbeats 4000000 in
/-- The third `take`: the position rows at the node numbers in `main_v1`. -/
private theorem s3_v6 (G : Valuation τ sig (Elt Ideal)) :
    (StableHlo.after (hostOps0_3 (F := Ideal)) G (Proc.devRef .tc main_v6) : FVec Ideal S1600000x3 .f32)
      = takePos (G (Proc.devRef .tc main_arg2)) (G (Proc.devRef .tc main_v1)) := by
  after_results_simp
  simp only [StableHlo.TRef.ofBuf_toBuf]
  simp only [StableHlo.TRef.toBuf, StableHlo.TRef.ofBuf, cast_eq]
  rfl

set_option maxHeartbeats 4000000 in
/-- The fourth `take`: the position rows at the node numbers in `main_v3`. -/
private theorem s4_v7 (G : Valuation τ sig (Elt Ideal)) :
    (StableHlo.after (hostOps0_4 (F := Ideal)) G (Proc.devRef .tc main_v7) : FVec Ideal S1600000x3 .f32)
      = takePos (G (Proc.devRef .tc main_arg2)) (G (Proc.devRef .tc main_v3)) := by
  after_results_simp
  simp only [StableHlo.TRef.ofBuf_toBuf]
  simp only [StableHlo.TRef.toBuf, StableHlo.TRef.ofBuf, cast_eq]
  rfl

/-- The difference of the two position arrays. -/
private theorem s5_v8 (G : Valuation τ sig (Elt Ideal)) :
    (StableHlo.after (hostOps0_5 (F := Ideal)) G (Proc.devRef .tc main_v8) : FVec Ideal S1600000x3 .f32)
      = (subf (G (Proc.devRef .tc main_v7)) (G (Proc.devRef .tc main_v6)) : FVec Ideal S1600000x3 .f32) := by
  after_results_simp

/-- The norm stretch: where `main_v8` holds a difference `pd − ps`, it leaves the edge lengths `lenOf pd ps`. -/
private theorem s6_v9 (G : Valuation τ sig (Elt Ideal)) (pd ps : FVec Ideal S1600000x3 .f32)
    (h : (G (Proc.devRef .tc main_v8) : FVec Ideal S1600000x3 .f32) = subf pd ps) :
    (StableHlo.after (hostOps0_6 (F := Ideal)) G (Proc.devRef .tc main_v9) : FVec Ideal S1600000x1 .f32) = lenOf pd ps := by
  after_results_simp
  simp only [StableHlo.TRef.ofBuf_toBuf]
  simp only [StableHlo.TRef.toBuf, StableHlo.TRef.ofBuf, cast_eq]
  rw [h]
  rfl

/-- Rows 0–63 of the first layer's weights. -/
private theorem s7_v10 (G : Valuation τ sig (Elt Ideal)) :
    (StableHlo.after (hostOps0_7 (F := Ideal)) G (Proc.devRef .tc main_v10) : FVec Ideal S64x64 .f32)
      = w1a (G (Proc.devRef .tc main_arg3)) := by
  after_results_simp
  rfl

/-- Rows 64–127 of the first layer's weights. -/
private theorem s7_v11 (G : Valuation τ sig (Elt Ideal)) :
    (StableHlo.after (hostOps0_7 (F := Ideal)) G (Proc.devRef .tc main_v11) : FVec Ideal S64x64 .f32)
      = w1b (G (Proc.devRef .tc main_arg3)) := by
  after_results_simp
  rfl

/-- Row 128 of the first layer's weights. -/
private theorem s7_v12 (G : Valuation τ sig (Elt Ideal)) :
    (StableHlo.after (hostOps0_7 (F := Ideal)) G (Proc.devRef .tc main_v12) : FVec Ideal S1x64 .f32)
      = w1c (G (Proc.devRef .tc main_arg3)) := by
  after_results_simp
  rfl

/-- The first layer's bias as a row. -/
private theorem s7_v13 (G : Valuation τ sig (Elt Ideal)) :
    (StableHlo.after (hostOps0_7 (F := Ideal)) G (Proc.devRef .tc main_v13) : FVec Ideal S1x64 .f32)
      = rowOf (G (Proc.devRef .tc main_arg4)) := by
  after_results_simp
  rfl

/-- The second layer's bias as a 1×1 matrix. -/
private theorem s7_v14 (G : Valuation τ sig (Elt Ideal)) :
    (StableHlo.after (hostOps0_7 (F := Ideal)) G (Proc.devRef .tc main_v14) : FVec Ideal S1x1 .f32)
      = oneOf (G (Proc.devRef .tc main_arg6)) := by
  after_results_simp
  rfl

/-- The message layer's bias as a row. -/
private theorem s7_v15 (G : Valuation τ sig (Elt Ideal)) :
    (StableHlo.after (hostOps0_7 (F := Ideal)) G (Proc.devRef .tc main_v15) : FVec Ideal S1x64 .f32)
      = rowOf (G (Proc.devRef .tc main_arg8)) := by
  after_results_simp
  rfl

variable (m : (ℓ : Loc nD τ sig) → Buf (Elt Ideal) ℓ)

/-! ## The contents at region entry -/

/-- The contents at region entry are the launch contents carried through the eight stretches in order. -/
private theorem V0_eq (c : Dev nD) :
    V0 m c = StableHlo.after hostOps0_7 (StableHlo.after hostOps0_6 (StableHlo.after hostOps0_5 (StableHlo.after hostOps0_4 (StableHlo.after hostOps0_3
        (StableHlo.after hostOps0_2 (StableHlo.after hostOps0_1 (StableHlo.after hostOps0 (fun b => m (c, b))))))))) := by
  dsimp only [V0]
  simp only [List.flatten_cons, List.flatten_nil, List.append_nil, StableHlo.after_append]

/-- The source node of every edge. -/
theorem V_v1 (c : Dev nD) : (V m c main_v1 : IVec S1600000 32) = srcVec (m ((c : Thread nD τ).loc main_arg1)) := by
  show V0 m c (Proc.devRef .tc main_v1) = _
  rw [V0_eq, keep7 (r := main_v1) _ (by decide), keep6 (r := main_v1) _ (by decide), keep5 (r := main_v1) _ (by decide), keep4 (r := main_v1) _ (by decide), keep3 (r := main_v1) _ (by decide), keep2 (r := main_v1) _ (by decide), keep1 (r := main_v1) _ (by decide), s0_v1]

/-- The destination node of every edge. -/
theorem V_v3 (c : Dev nD) : (V m c main_v3 : IVec S1600000 32) = dstVec (m ((c : Thread nD τ).loc main_arg1)) := by
  show V0 m c (Proc.devRef .tc main_v3) = _
  rw [V0_eq, keep7 (r := main_v3) _ (by decide), keep6 (r := main_v3) _ (by decide), keep5 (r := main_v3) _ (by decide), keep4 (r := main_v3) _ (by decide), keep3 (r := main_v3) _ (by decide), keep2 (r := main_v3) _ (by decide), keep1 (r := main_v3) _ (by decide), s0_v3]

/-- The source feature rows. -/
theorem V_v4 (c : Dev nD) : (V m c main_v4 : FVec Ideal S1600000x64 .f32) = takeRows (m ((c : Thread nD τ).loc main_arg0)) (srcVec (m ((c : Thread nD τ).loc main_arg1))) := by
  show V0 m c (Proc.devRef .tc main_v4) = _
  rw [V0_eq, keep7 (r := main_v4) _ (by decide), keep6 (r := main_v4) _ (by decide), keep5 (r := main_v4) _ (by decide), keep4 (r := main_v4) _ (by decide), keep3 (r := main_v4) _ (by decide), keep2 (r := main_v4) _ (by decide), s1_v4, keep0 (r := main_arg0) _ (by decide), s0_v1]

/-- The destination feature rows. -/
theorem V_v5 (c : Dev nD) : (V m c main_v5 : FVec Ideal S1600000x64 .f32) = takeRows (m ((c : Thread nD τ).loc main_arg0)) (dstVec (m ((c : Thread nD τ).loc main_arg1))) := by
  show V0 m c (Proc.devRef .tc main_v5) = _
  rw [V0_eq, keep7 (r := main_v5) _ (by decide), keep6 (r := main_v5) _ (by decide), keep5 (r := main_v5) _ (by decide), keep4 (r := main_v5) _ (by decide), keep3 (r := main_v5) _ (by decide), s2_v5, keep1 (r := main_arg0) _ (by decide), keep0 (r := main_arg0) _ (by decide), keep1 (r := main_v3) _ (by decide), s0_v3]

/-- The edge lengths. -/
theorem V_v9 (c : Dev nD) : (V m c main_v9 : FVec Ideal S1600000x1 .f32)
    = lenOf (takePos (m ((c : Thread nD τ).loc main_arg2)) (dstVec (m ((c : Thread nD τ).loc main_arg1)))) (takePos (m ((c : Thread nD τ).loc main_arg2)) (srcVec (m ((c : Thread nD τ).loc main_arg1)))) := by
  show V0 m c (Proc.devRef .tc main_v9) = _
  rw [V0_eq, keep7 (r := main_v9) _ (by decide)]
  refine s6_v9 _ _ _ ?_
  rw [s5_v8, s4_v7, keep4 (r := main_v6) _ (by decide), s3_v6, keep3 (r := main_arg2) _ (by decide), keep2 (r := main_arg2) _ (by decide), keep1 (r := main_arg2) _ (by decide), keep0 (r := main_arg2) _ (by decide), keep3 (r := main_v3) _ (by decide), keep2 (r := main_v3) _ (by decide), keep1 (r := main_v3) _ (by decide), s0_v3,
    keep2 (r := main_v1) _ (by decide), keep1 (r := main_v1) _ (by decide), s0_v1]

theorem V_v10 (c : Dev nD) : (V m c main_v10 : FVec Ideal S64x64 .f32) = w1a (m ((c : Thread nD τ).loc main_arg3)) := by
  show V0 m c (Proc.devRef .tc main_v10) = _
  rw [V0_eq, s7_v10, keep6 (r := main_arg3) _ (by decide), keep5 (r := main_arg3) _ (by decide), keep4 (r := main_arg3) _ (by decide), keep3 (r := main_arg3) _ (by decide), keep2 (r := main_arg3) _ (by decide), keep1 (r := main_arg3) _ (by decide), keep0 (r := main_arg3) _ (by decide)]

theorem V_v11 (c : Dev nD) : (V m c main_v11 : FVec Ideal S64x64 .f32) = w1b (m ((c : Thread nD τ).loc main_arg3)) := by
  show V0 m c (Proc.devRef .tc main_v11) = _
  rw [V0_eq, s7_v11, keep6 (r := main_arg3) _ (by decide), keep5 (r := main_arg3) _ (by decide), keep4 (r := main_arg3) _ (by decide), keep3 (r := main_arg3) _ (by decide), keep2 (r := main_arg3) _ (by decide), keep1 (r := main_arg3) _ (by decide), keep0 (r := main_arg3) _ (by decide)]

theorem V_v12 (c : Dev nD) : (V m c main_v12 : FVec Ideal S1x64 .f32) = w1c (m ((c : Thread nD τ).loc main_arg3)) := by
  show V0 m c (Proc.devRef .tc main_v12) = _
  rw [V0_eq, s7_v12, keep6 (r := main_arg3) _ (by decide), keep5 (r := main_arg3) _ (by decide), keep4 (r := main_arg3) _ (by decide), keep3 (r := main_arg3) _ (by decide), keep2 (r := main_arg3) _ (by decide), keep1 (r := main_arg3) _ (by decide), keep0 (r := main_arg3) _ (by decide)]

theorem V_v13 (c : Dev nD) : (V m c main_v13 : FVec Ideal S1x64 .f32) = rowOf (m ((c : Thread nD τ).loc main_arg4)) := by
  show V0 m c (Proc.devRef .tc main_v13) = _
  rw [V0_eq, s7_v13, keep6 (r := main_arg4) _ (by decide), keep5 (r := main_arg4) _ (by decide), keep4 (r := main_arg4) _ (by decide), keep3 (r := main_arg4) _ (by decide), keep2 (r := main_arg4) _ (by decide), keep1 (r := main_arg4) _ (by decide), keep0 (r := main_arg4) _ (by decide)]

theorem V_v14 (c : Dev nD) : (V m c main_v14 : FVec Ideal S1x1 .f32) = oneOf (m ((c : Thread nD τ).loc main_arg6)) := by
  show V0 m c (Proc.devRef .tc main_v14) = _
  rw [V0_eq, s7_v14, keep6 (r := main_arg6) _ (by decide), keep5 (r := main_arg6) _ (by decide), keep4 (r := main_arg6) _ (by decide), keep3 (r := main_arg6) _ (by decide), keep2 (r := main_arg6) _ (by decide), keep1 (r := main_arg6) _ (by decide), keep0 (r := main_arg6) _ (by decide)]

theorem V_v15 (c : Dev nD) : (V m c main_v15 : FVec Ideal S1x64 .f32) = rowOf (m ((c : Thread nD τ).loc main_arg8)) := by
  show V0 m c (Proc.devRef .tc main_v15) = _
  rw [V0_eq, s7_v15, keep6 (r := main_arg8) _ (by decide), keep5 (r := main_arg8) _ (by decide), keep4 (r := main_arg8) _ (by decide), keep3 (r := main_arg8) _ (by decide), keep2 (r := main_arg8) _ (by decide), keep1 (r := main_arg8) _ (by decide), keep0 (r := main_arg8) _ (by decide)]

end Cert.KernelIdeal.HostVals

end
-- ==== Proof.LibHostRead.lean ====
/-
  Two readings at the ideal values that the library's index vocabulary does not have: the host's float quotient at an
  index, and a 32-bit index word read signed that lands in a range [0, K).
-/
import Idealize.ShloMosaic.PureOps.Ideal
import Idealize.ShloMosaic.Lib.ValueIdx

namespace Idealize.ShloMosaic.ValueIdx

open Idealize.ShloMosaic

/-- The host's float quotient (`stablehlo.divide`) read at an index, at the ideal values: the extended reals' quotient
    of the operands' entries (the host's twin of `divf_apply`). -/
theorem hostDivf_apply {s : Shape} {φ : FTy} (a b : FVec Ideal s φ) (i : s.Idx) :
    Host.divf a b i = Ideal.div (a i) (b i) := rfl

/-- A 32-bit word read SIGNED lies in [0, K) at the natural number `k < K` (with K ≤ 2³¹) exactly when the word read
    UNSIGNED is `k`: what a scatter's or a gather's start index, which is read signed and dropped outside the operand,
    says of an index word when the target position is inside the operand. -/
theorem toInt_lands_iff (w : BitVec 32) {K : ℤ} {k : ℕ} (hK : K ≤ 2 ^ 31) (hk : (k : ℤ) < K) :
    (0 ≤ w.toInt ∧ w.toInt < K ∧ w.toInt.toNat = k) ↔ w.toNat = k := by
  have h := w.isLt
  rw [BitVec.toInt_eq_toNat_cond]
  split <;> omega

end Idealize.ShloMosaic.ValueIdx
-- ==== Proof.TakeGather.lean ====
/-
  With every node number inside `[0, 100000)` the range test of `take` passes at every edge, so `take` is the plain
  gather at the wrapped indices; and the small layout reads of the parameter arrays: the three row blocks of the first
  layer's weights, a vector as a row, a 1-vector as a 1×1 matrix.
-/
import proofs.«419605_j38345468018707_1_alg».proof.Proof.HostTerms
import proofs.«419605_j38345468018707_1_alg».proof.Proof.LibKeepdims
import proofs.«419605_j38345468018707_1_alg».proof.Proof.LibHostRead
import Idealize.ShloMosaic.PureOps.Ideal
import Idealize.ShloMosaic.Lib.ValueIdx
import Idealize.ShloMosaic.Lib.ValueLayout
import Idealize.ShloMosaic.Lib.Pipeline.Value
import Idealize.ShloMosaic.Lib.ReduceAll
import Idealize.ShloMosaic.Lib.Affine

noncomputable section

namespace Cert.KernelIdeal.TakeGather

open Idealize.ShloMosaic Idealize.ShloMosaic.ValueIdx Cert.KernelIdeal Cert.KernelIdeal.Facts₀ Cert.KernelIdeal.Facts
open Cert.KernelIdeal.HostTerms

/-! ### Words -/

/-- A word that is not negative is not moved by the wrap. -/
private theorem wrap_word (w : BitVec 32) (h : 0 ≤ w.toInt) :
    Scalar.select (IntOp.cmpi .slt w 0#32) (IntOp.addi w 100000#32) w = w := by
  unfold Scalar.select
  refine if_neg fun hc => ?_
  have h1 := IntOp.cmpi_slt.1 hc
  rw [show (0#32 : BitVec 32).toInt = 0 from by decide] at h1
  omega

/-- A word in [0, 100000) passes the test of lying in [0, 99999]. -/
private theorem range_word (w : BitVec 32) (h0 : 0 ≤ w.toInt) (h1 : w.toInt < 100000) :
    IntOp.andi (IntOp.cmpi .sge w 0#32) (IntOp.cmpi .sle w 99999#32) = 1#1 := by
  rw [IntOp.andi_eq_one, IntOp.cmpi_sge, IntOp.cmpi_sle, show (0#32 : BitVec 32).toInt = 0 from by decide,
    show (99999#32 : BitVec 32).toInt = 99999 from by decide]
  omega

/-- A left fold by and, from 1, over words that are all 1, is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-! ### The start indices and the range test -/

/-- In-range node numbers are their own start indices. -/
private theorem wrapCol_apply (v : IVec S1600000 32) (hv : ∀ e : S1600000.Idx, 0 ≤ (v e).toInt ∧ (v e).toInt < 100000)
    (e : Fin 1600000) (u : Fin 1) : wrapCol v (ix2 e u) = v (ix1 e) := by
  unfold wrapCol
  refine (Cert.LibKeepdims.broadcastInDim_a_a1_apply _ _ e u).trans ?_
  exact wrap_word (v (ix1 e)) (hv (ix1 e)).1

/-- The range test passes at every edge. -/
private theorem inRange_wrap (v : IVec S1600000 32) (hv : ∀ e : S1600000.Idx, 0 ≤ (v e).toInt ∧ (v e).toInt < 100000)
    (j : S1600000.Idx) : inRange (wrapCol v) j = 1#1 := by
  unfold inRange
  rw [Host.reduce_eq_foldl]
  refine foldl_andi_one _ _ fun i _ => ?_
  obtain ⟨e, u, rfl⟩ : ∃ (e : Fin 1600000) (u : Fin 1), i = ix2 e u := ⟨i 0, i 1, eq_ix2 i⟩
  show IntOp.andi (IntOp.cmpi .sge (wrapCol v (ix2 e u)) 0#32) (IntOp.cmpi .sle (wrapCol v (ix2 e u)) 99999#32) = 1#1
  rw [wrapCol_apply v hv]
  exact range_word _ (hv _).1 (hv _).2

/-- A select whose mask is 1 at an index reads its first branch there. -/
private theorem select_one {s : Shape} {α : Type} (c : IVec s 1) (a b : s.Idx → α) (i : s.Idx) (h : c i = 1#1) :
    select c a b i = a i := by
  show Scalar.select (c i) (a i) (b i) = a i
  rw [h]
  exact if_pos rfl

/-- The edge list's entries in range: both of its rows are in range. -/
theorem srcVec_range (a1 : IVec S2x1600000 32) (h : ∀ i : S2x1600000.Idx, 0 ≤ (a1 i).toInt ∧ (a1 i).toInt < 100000)
    (e : S1600000.Idx) : 0 ≤ (srcVec a1 e).toInt ∧ (srcVec a1 e).toInt < 100000 := by
  exact h _

theorem dstVec_range (a1 : IVec S2x1600000 32) (h : ∀ i : S2x1600000.Idx, 0 ≤ (a1 i).toInt ∧ (a1 i).toInt < 100000)
    (e : S1600000.Idx) : 0 ≤ (dstVec a1 e).toInt ∧ (dstVec a1 e).toInt < 100000 := by
  exact h _

/-- In-range node numbers pass `take`'s range test everywhere: `take` of feature rows is the gather. -/
theorem takeRows_eq (X : FVec Ideal S100000x64 .f32) (v : IVec S1600000 32)
    (hv : ∀ e : S1600000.Idx, 0 ≤ (v e).toInt ∧ (v e).toInt < 100000) :
    takeRows X v = Host.gather gather_S100000x64_S1600000x1_S1600000x64_1_0_n_n_0_1_164 X (wrapCol v) := by
  funext i
  unfold takeRows
  refine select_one _ _ _ i ?_
  unfold broadcastInDim
  exact inRange_wrap v hv _

/-- The same for position rows. -/
theorem takePos_eq (X : FVec Ideal S100000x3 .f32) (v : IVec S1600000 32)
    (hv : ∀ e : S1600000.Idx, 0 ≤ (v e).toInt ∧ (v e).toInt < 100000) :
    takePos X v = Host.gather gather_S100000x3_S1600000x1_S1600000x3_1_0_n_n_0_1_13 X (wrapCol v) := by
  funext i
  unfold takePos
  refine select_one _ _ _ i ?_
  unfold broadcastInDim
  exact inRange_wrap v hv _

theorem w1a_apply (a3 : FVec Ideal S129x64 .f32) (k j : Fin 64) :
    w1a a3 (ix2 k j) = a3 (ix2 (⟨k.val, by omega⟩ : Fin 129) j) := by
  unfold w1a
  exact extractStridedSlice_apply _ a3 _ (ix2 k j) (ix2 (⟨k.val, by omega⟩ : Fin 129) j) (fun a => match a with
    | ⟨0, _⟩ => by show k.val = 0 + k.val; omega
    | ⟨1, _⟩ => by show j.val = 0 + j.val; omega)

theorem w1b_apply (a3 : FVec Ideal S129x64 .f32) (k j : Fin 64) :
    w1b a3 (ix2 k j) = a3 (ix2 (⟨64 + k.val, by omega⟩ : Fin 129) j) := by
  unfold w1b
  exact extractStridedSlice_apply _ a3 _ (ix2 k j) (ix2 (⟨64 + k.val, by omega⟩ : Fin 129) j) (fun a => match a with
    | ⟨0, _⟩ => by show 64 + k.val = 64 + k.val; omega
    | ⟨1, _⟩ => by show j.val = 0 + j.val; omega)

theorem w1c_apply (a3 : FVec Ideal S129x64 .f32) (j : Fin 64) :
    w1c a3 (ix2 (0 : Fin 1) j) = a3 (ix2 (⟨128, by norm_num⟩ : Fin 129) j) := by
  unfold w1c
  exact extractStridedSlice_apply _ a3 _ (ix2 (0 : Fin 1) j) (ix2 (⟨128, by norm_num⟩ : Fin 129) j) (fun a => match a with
    | ⟨0, _⟩ => by show 128 = 128 + 0; omega
    | ⟨1, _⟩ => by show j.val = 0 + j.val; omega)

theorem rowOf_apply (a : FVec Ideal S64 .f32) (j : Fin 64) : rowOf a (ix2 (0 : Fin 1) j) = a (ix1 j) := by
  unfold rowOf
  exact shapeCast_apply a _ (ix2 (0 : Fin 1) j) (ix1 j) (by
    rw [Shape.rowMajor_val_one, Shape.rowMajor_val_two]
    show j.val = 0 * 64 + j.val
    omega)

theorem oneOf_apply (a : FVec Ideal S1 .f32) : oneOf a (ix2 (0 : Fin 1) (0 : Fin 1)) = a (ix1 (0 : Fin 1)) := by
  unfold oneOf
  exact shapeCast_apply a _ (ix2 (0 : Fin 1) (0 : Fin 1)) (ix1 (0 : Fin 1)) (by
    rw [Shape.rowMajor_val_one, Shape.rowMajor_val_two]
    show 0 = 0 * 1 + 0
    omega)

end Cert.KernelIdeal.TakeGather

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.RefRows.lean ====
/-
  The reference's edge weights and messages, read at an index, at the ideal values.
-/
import proofs.«419605_j38345468018707_1_alg».proof.Proof.Gen.ReferenceIdeal.Read
import proofs.«419605_j38345468018707_1_alg».proof.Proof.EdgeSpec
import proofs.«419605_j38345468018707_1_alg».proof.Proof.LibRowGather
import proofs.«419605_j38345468018707_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefRows

open Idealize.ShloMosaic Idealize.ShloMosaic.ValueIdx Cert.ReferenceIdeal Cert.ReferenceIdeal.Read Cert.EdgeSpec

/-! ### Index functions as coordinates -/

private theorem lidx35 (e : Fin 1600000) (j : Fin 64) (k : Fin 129) :
    (lidx_main_v35 (ix2 e j) k : S1600000x129.Idx) = ix2 e k :=
  funext fun a => Fin.ext (by match a with | ⟨0, _⟩ => rfl | ⟨1, _⟩ => rfl)

private theorem ridx35 (e : Fin 1600000) (j : Fin 64) (k : Fin 129) :
    (ridx_main_v35 (ix2 e j) k : S129x64.Idx) = ix2 k j :=
  funext fun a => Fin.ext (by match a with | ⟨0, _⟩ => rfl | ⟨1, _⟩ => rfl)

private theorem idx3637 (e : Fin 1600000) (j : Fin 64) :
    (idx_main_v36 (idx_main_v37 (ix2 e j)) : S64.Idx) = ix1 j :=
  funext fun a => Fin.ext (by match a with | ⟨0, _⟩ => rfl)

private theorem lidx40 (e : Fin 1600000) (u : Fin 1) (k : Fin 64) :
    (lidx_main_v40 (ix2 e u) k : S1600000x64.Idx) = ix2 e k :=
  funext fun a => Fin.ext (by match a with | ⟨0, _⟩ => rfl | ⟨1, _⟩ => rfl)

private theorem ridx40 (e : Fin 1600000) (u : Fin 1) (k : Fin 64) :
    (ridx_main_v40 (ix2 e u) k : S64x1.Idx) = ix2 k u :=
  funext fun a => Fin.ext (by match a with | ⟨0, _⟩ => rfl | ⟨1, _⟩ => rfl)

private theorem idx4142 (e : Fin 1600000) (u : Fin 1) :
    (idx_main_v41 (idx_main_v42 (ix2 e u)) : S1.Idx) = ix1 (0 : Fin 1) :=
  funext fun a => Fin.ext (by match a with | ⟨0, _⟩ => rfl)

private theorem lidx50 (r : Fin 100000) (j : Fin 64) (k : Fin 64) :
    (lidx_main_v50 (ix2 r j) k : S100000x64.Idx) = ix2 r k :=
  funext fun a => Fin.ext (by match a with | ⟨0, _⟩ => rfl | ⟨1, _⟩ => rfl)

private theorem ridx50 (r : Fin 100000) (j : Fin 64) (k : Fin 64) :
    (ridx_main_v50 (ix2 r j) k : S64x64.Idx) = ix2 k j :=
  funext fun a => Fin.ext (by match a with | ⟨0, _⟩ => rfl | ⟨1, _⟩ => rfl)

private theorem idx5152 (r : Fin 100000) (j : Fin 64) :
    (idx_main_v51 (idx_main_v52 (ix2 r j)) : S64.Idx) = ix1 j :=
  funext fun a => Fin.ext (by match a with | ⟨0, _⟩ => rfl)

private theorem idx61 (e : Fin 1600000) (j : Fin 64) :
    (idx_main_v61 (ix2 e j) : S1600000x1.Idx) = ix2 e (0 : Fin 1) :=
  funext fun a => Fin.ext (by match a with | ⟨0, _⟩ => rfl | ⟨1, _⟩ => rfl)

/-! ### The joined array read in each of its three pieces -/

/-- A column below 64 falls in the first piece, at the same column. -/
private theorem cat_left (A B : (⟨2, ![1600000, 64]⟩ : Shape).Idx → EReal) (C : (⟨2, ![1600000, 1]⟩ : Shape).Idx → EReal)
    (e : Fin 1600000) (k : Fin 64) :
    concatenate S1600000x129 1 [⟨S1600000x64, A⟩, ⟨S1600000x64, B⟩, ⟨S1600000x1, C⟩]
        Gen.concatenates_S1600000x64_S1600000x64_S1600000x1_S1600000x129_d1 (ix2 e (⟨k.val, by omega⟩ : Fin 129))
      = A (ix2 e k) :=
  concatenate_apply_piece (t := S1600000x129) 1 [⟨S1600000x64, A⟩, ⟨S1600000x64, B⟩, ⟨S1600000x1, C⟩] _ _ 0 (by simp)
    S1600000x64 A rfl rfl 0 rfl (ix2 e k)
    (fun b => by match b with | ⟨0, _⟩ => exact fun _ => rfl | ⟨1, _⟩ => exact fun hb => absurd rfl hb)
    (Nat.zero_add _)

/-- A column from 64 to 127 falls in the second piece, 64 columns earlier. -/
private theorem cat_mid (A B : (⟨2, ![1600000, 64]⟩ : Shape).Idx → EReal) (C : (⟨2, ![1600000, 1]⟩ : Shape).Idx → EReal)
    (e : Fin 1600000) (k : Fin 64) :
    concatenate S1600000x129 1 [⟨S1600000x64, A⟩, ⟨S1600000x64, B⟩, ⟨S1600000x1, C⟩]
        Gen.concatenates_S1600000x64_S1600000x64_S1600000x1_S1600000x129_d1 (ix2 e (⟨64 + k.val, by omega⟩ : Fin 129))
      = B (ix2 e k) :=
  concatenate_apply_piece (t := S1600000x129) 1 [⟨S1600000x64, A⟩, ⟨S1600000x64, B⟩, ⟨S1600000x1, C⟩] _ _ 1 (by simp)
    S1600000x64 B rfl rfl 64 rfl (ix2 e k)
    (fun b => by match b with | ⟨0, _⟩ => exact fun _ => rfl | ⟨1, _⟩ => exact fun hb => absurd rfl hb)
    rfl

/-- Column 128 is the third piece's one column. -/
private theorem cat_right (A B : (⟨2, ![1600000, 64]⟩ : Shape).Idx → EReal) (C : (⟨2, ![1600000, 1]⟩ : Shape).Idx → EReal)
    (e : Fin 1600000) :
    concatenate S1600000x129 1 [⟨S1600000x64, A⟩, ⟨S1600000x64, B⟩, ⟨S1600000x1, C⟩]
        Gen.concatenates_S1600000x64_S1600000x64_S1600000x1_S1600000x129_d1 (ix2 e (⟨128, by norm_num⟩ : Fin 129))
      = C (ix2 e (0 : Fin 1)) :=
  concatenate_apply_piece (t := S1600000x129) 1 [⟨S1600000x64, A⟩, ⟨S1600000x64, B⟩, ⟨S1600000x1, C⟩] _ _ 2 (by simp)
    S1600000x1 C rfl rfl 128 rfl (ix2 e (0 : Fin 1))
    (fun b => by match b with | ⟨0, _⟩ => exact fun _ => rfl | ⟨1, _⟩ => exact fun hb => absurd rfl hb)
    rfl

/-! ### The hidden units -/

/-- A hidden unit of an edge, as the reference computes it. -/
private theorem ref_hidden (x0 : (⟨S100000x64, .f32⟩ : BufTy).Contents (Elt Ideal)) (x1 : (⟨S2x1600000, .i32⟩ : BufTy).Contents (Elt Ideal))
    (x2 : (⟨S100000x3, .f32⟩ : BufTy).Contents (Elt Ideal)) (x3 : (⟨S129x64, .f32⟩ : BufTy).Contents (Elt Ideal))
    (x4 : (⟨S64, .f32⟩ : BufTy).Contents (Elt Ideal)) (e : Fin 1600000) (j : Fin 64) :
    val_main_v39 (F := Ideal) x0 x1 x2 x3 x4 (ix2 e j)
      = Cert.EdgeSpec.hidden (fun k j => x3 (ix2 (⟨k.val, by omega⟩ : Fin 129) j)) (fun k j => x3 (ix2 (⟨64 + k.val, by omega⟩ : Fin 129) j))
          (fun j => x3 (ix2 (⟨128, by norm_num⟩ : Fin 129) j)) (fun j => x4 (ix1 j))
          (fun k => val_main_v26 (F := Ideal) x0 x1 (ix2 e k)) (fun k => val_main_v33 (F := Ideal) x0 x1 (ix2 e k))
          (val_main_v19 (F := Ideal) x1 x2 (ix2 e (0 : Fin 1))) j := by
  rw [val_main_v39_apply, val_main_call1_v0_apply, val_main_call1_cst_apply, val_main_v38_apply, val_main_v37_apply,
    val_main_v36_apply, val_main_v35_apply, idx3637, sum_fin129]
  unfold Cert.EdgeSpec.hidden
  rw [Ideal.maximumf_def, Ideal.addf_def, Ideal.ofBits_def, Ideal.ofBits_zero_f32]
  refine congrArg (fun t => max (t + x4 (ix1 j)) 0) ?_
  refine congrArg₂ (· + ·) (congrArg₂ (· + ·) (Finset.sum_congr rfl fun k _ => ?_) (Finset.sum_congr rfl fun k _ => ?_)) ?_
  · rw [lidx35, ridx35]
    exact congrArg (· * x3 (ix2 (⟨k.val, by omega⟩ : Fin 129) j)) (cat_left _ _ _ e k)
  · rw [lidx35, ridx35]
    exact congrArg (· * x3 (ix2 (⟨64 + k.val, by omega⟩ : Fin 129) j)) (cat_mid _ _ _ e k)
  · rw [lidx35, ridx35]
    exact congrArg (· * x3 (ix2 (⟨128, by norm_num⟩ : Fin 129) j)) (cat_right _ _ _ e)

/-! ### The gathers of whole rows -/

/-- The gather's dimension numbers are the row gather's. -/
private theorem gather_dims :
    gather_S100000x64_S1600000x1_S1600000x64_1_0_n_n_0_1_164
      = rowGatherDims 100000 1600000 64 Gen.gather_S100000x64_S1600000x1_S1600000x64_1_0_n_n_0_1_164_wf := rfl

/-- The gather read at an entry: the operand at the row the edge reads and the same column. -/
private theorem gather_read (x : S100000x64.Idx → EReal) (idx : IVec S1600000x1 32) (e : Fin 1600000) (q : Fin 64) :
    Host.gather gather_S100000x64_S1600000x1_S1600000x64_1_0_n_n_0_1_164 x idx (ix2 e q)
      = x (ix2 (gatherRow (N := 100000) (by norm_num) idx e) q) := by
  rw [gather_dims]
  exact rowGather_apply (by norm_num) _ x idx e q

/-- The message's source indices are the first layer's. -/
private theorem src_idx (x1 : (⟨S2x1600000, .i32⟩ : BufTy).Contents (Elt Ideal)) :
    val_main_v59 (F := Ideal) x1 = val_main_v25 (F := Ideal) x1 := rfl

/-- The reference's weight of edge `e`. -/
theorem ref_weight (x0 : (⟨S100000x64, .f32⟩ : BufTy).Contents (Elt Ideal)) (x1 : (⟨S2x1600000, .i32⟩ : BufTy).Contents (Elt Ideal))
    (x2 : (⟨S100000x3, .f32⟩ : BufTy).Contents (Elt Ideal)) (x3 : (⟨S129x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (e : Fin 1600000) (u : Fin 1) :
    val_main_v49 (F := Ideal) x0 x1 x2 x3 x4 x5 x6 (ix2 e u)
      = weight (fun k j => x3 (ix2 (⟨k.val, by omega⟩ : Fin 129) j)) (fun k j => x3 (ix2 (⟨64 + k.val, by omega⟩ : Fin 129) j))
          (fun j => x3 (ix2 (⟨128, by norm_num⟩ : Fin 129) j)) (fun j => x4 (ix1 j)) (fun j => x5 (ix2 j (0 : Fin 1)))
          (x6 (ix1 (0 : Fin 1)))
          (fun k => val_main_v26 (F := Ideal) x0 x1 (ix2 e k)) (fun k => val_main_v33 (F := Ideal) x0 x1 (ix2 e k))
          (val_main_v19 (F := Ideal) x1 x2 (ix2 e (0 : Fin 1))) := by
  have hu : u = 0 := Subsingleton.elim u 0
  subst hu
  rw [val_main_v49_apply, val_main_v48_apply, val_main_cst_7_apply, val_main_v47_apply, val_main_v46_apply,
    val_main_cst_apply, val_main_v45_apply, val_main_v44_apply, val_main_v43_apply, val_main_v42_apply,
    val_main_v41_apply, val_main_v40_apply, idx4142]
  unfold weight Ideal.logistic
  rw [Ideal.hostDivf_def, Ideal.addf_def, Ideal.addf_def, Ideal.hostUnary_exp_def, Ideal.hostNegf_def, Ideal.negf_def,
    Ideal.ofBits_def, Ideal.ofBits_one_f32]
  refine congrArg (fun t => Ideal.div 1 (1 + Ideal.exp (-(t + x6 (ix1 (0 : Fin 1)))))) ?_
  refine Finset.sum_congr rfl fun j _ => ?_
  rw [lidx40, ridx40, ref_hidden]

/-- The reference's message of edge `e`, entry `j`. -/
theorem ref_message (x0 : (⟨S100000x64, .f32⟩ : BufTy).Contents (Elt Ideal)) (x1 : (⟨S2x1600000, .i32⟩ : BufTy).Contents (Elt Ideal))
    (x2 : (⟨S100000x3, .f32⟩ : BufTy).Contents (Elt Ideal)) (x3 : (⟨S129x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (x7 : (⟨S64x64, .f32⟩ : BufTy).Contents (Elt Ideal))
    (x8 : (⟨S64, .f32⟩ : BufTy).Contents (Elt Ideal)) (e : Fin 1600000) (j : Fin 64) :
    val_main_v62 (F := Ideal) x0 x1 x2 x3 x4 x5 x6 x7 x8 (ix2 e j)
      = message (fun k j => x7 (ix2 k j)) (fun j => x8 (ix1 j)) (fun k => val_main_v26 (F := Ideal) x0 x1 (ix2 e k))
          (weight (fun k j => x3 (ix2 (⟨k.val, by omega⟩ : Fin 129) j)) (fun k j => x3 (ix2 (⟨64 + k.val, by omega⟩ : Fin 129) j))
            (fun j => x3 (ix2 (⟨128, by norm_num⟩ : Fin 129) j)) (fun j => x4 (ix1 j)) (fun j => x5 (ix2 j (0 : Fin 1)))
            (x6 (ix1 (0 : Fin 1)))
            (fun k => val_main_v26 (F := Ideal) x0 x1 (ix2 e k)) (fun k => val_main_v33 (F := Ideal) x0 x1 (ix2 e k))
            (val_main_v19 (F := Ideal) x1 x2 (ix2 e (0 : Fin 1)))) j := by
  rw [val_main_v62_apply, val_main_v61_apply, idx61, ref_weight, Ideal.mulf_def]
  unfold message
  congr 1
  unfold val_main_v60
  rw [gather_read, src_idx, val_main_v53_apply, val_main_v52_apply, val_main_v51_apply, val_main_v50_apply, idx5152,
    Ideal.addf_def]
  refine congrArg (· + x8 (ix1 j)) (Finset.sum_congr rfl fun k _ => ?_)
  rw [lidx50, ridx50]
  refine congrArg (· * x7 (ix2 k j)) ?_
  unfold val_main_v26
  exact (gather_read _ _ e k).symm

end Cert.ReferenceIdeal.RefRows

end
-- ==== Proof.KernelValue.lean ====
/-
  The kernel's two arrays against the reference's stages.

  Under the precondition every node number is in range, so the kernel's `take`s are the reference's gathers and the
  three per-edge arrays the region stages are the reference's own stages, as whole arrays; the parameter arrays it
  stages are row blocks and reshapes of the arguments. Edge by edge, both sides are then the specification's weight
  and message of the same rows: the weight array is the reference's weights and the message array its messages.
-/
import proofs.«419605_j38345468018707_1_alg».proof.Proof.KernelBlocks
import proofs.«419605_j38345468018707_1_alg».proof.Proof.HostVals
import proofs.«419605_j38345468018707_1_alg».proof.Proof.TakeGather
import proofs.«419605_j38345468018707_1_alg».proof.Proof.RefRows

set_option maxRecDepth 16384

noncomputable section

namespace Cert.KernelIdeal.Meet

open Idealize.ShloMosaic Idealize.ShloMosaic.TcCoe Idealize.SL.Sem Idealize.ShloMosaic.ValueIdx
open Cert.KernelIdeal Cert.KernelIdeal.Gen Cert.KernelIdeal.Blocks Cert.KernelIdeal.HostTerms Cert.KernelIdeal.HostVals
open Cert.KernelIdeal.TakeGather Cert.EdgeSpec

/-! ## The kernel's gathers are the reference's stages -/

/-- The gathered source rows are the reference's `x[src]`. -/
theorem gather_src (a0 : FVec Ideal S100000x64 .f32) (a1 : IVec S2x1600000 32) :
    Host.gather gather_S100000x64_S1600000x1_S1600000x64_1_0_n_n_0_1_164 a0 (wrapCol (srcVec a1))
      = Cert.ReferenceIdeal.Read.val_main_v26 (F := Ideal) a0 a1 := rfl

/-- The gathered destination rows are the reference's `x[dst]`. -/
theorem gather_dst (a0 : FVec Ideal S100000x64 .f32) (a1 : IVec S2x1600000 32) :
    Host.gather gather_S100000x64_S1600000x1_S1600000x64_1_0_n_n_0_1_164 a0 (wrapCol (dstVec a1))
      = Cert.ReferenceIdeal.Read.val_main_v33 (F := Ideal) a0 a1 := rfl

/-- The lengths of the gathered positions are the reference's edge lengths. -/
theorem len_eq (a1 : IVec S2x1600000 32) (a2 : FVec Ideal S100000x3 .f32) :
    lenOf (Host.gather gather_S100000x3_S1600000x1_S1600000x3_1_0_n_n_0_1_13 a2 (wrapCol (dstVec a1)))
        (Host.gather gather_S100000x3_S1600000x1_S1600000x3_1_0_n_n_0_1_13 a2 (wrapCol (srcVec a1)))
      = Cert.ReferenceIdeal.Read.val_main_v19 (F := Ideal) a1 a2 := rfl

variable (m : (ℓ : Loc nD τ sig) → Buf (Elt Ideal) ℓ)

/-- The three per-edge arrays the region stages, under the range of the node numbers. -/
theorem staged_src (c : Dev nD) (hr : ∀ i : S2x1600000.Idx, 0 ≤ ((m ((c : Thread nD τ).loc main_arg1)) i).toInt ∧ ((m ((c : Thread nD τ).loc main_arg1)) i).toInt < 100000) :
    (V m c main_v4 : FVec Ideal S1600000x64 .f32) = Cert.ReferenceIdeal.Read.val_main_v26 (F := Ideal) (m ((c : Thread nD τ).loc main_arg0)) (m ((c : Thread nD τ).loc main_arg1)) := by
  rw [V_v4, takeRows_eq _ _ (srcVec_range _ hr)]
  exact gather_src _ _

theorem staged_dst (c : Dev nD) (hr : ∀ i : S2x1600000.Idx, 0 ≤ ((m ((c : Thread nD τ).loc main_arg1)) i).toInt ∧ ((m ((c : Thread nD τ).loc main_arg1)) i).toInt < 100000) :
    (V m c main_v5 : FVec Ideal S1600000x64 .f32) = Cert.ReferenceIdeal.Read.val_main_v33 (F := Ideal) (m ((c : Thread nD τ).loc main_arg0)) (m ((c : Thread nD τ).loc main_arg1)) := by
  rw [V_v5, takeRows_eq _ _ (dstVec_range _ hr)]
  exact gather_dst _ _

theorem staged_len (c : Dev nD) (hr : ∀ i : S2x1600000.Idx, 0 ≤ ((m ((c : Thread nD τ).loc main_arg1)) i).toInt ∧ ((m ((c : Thread nD τ).loc main_arg1)) i).toInt < 100000) :
    (V m c main_v9 : FVec Ideal S1600000x1 .f32) = Cert.ReferenceIdeal.Read.val_main_v19 (F := Ideal) (m ((c : Thread nD τ).loc main_arg1)) (m ((c : Thread nD τ).loc main_arg2)) := by
  rw [V_v9, takePos_eq _ _ (dstVec_range _ hr), takePos_eq _ _ (srcVec_range _ hr)]
  exact len_eq _ _

/-! ## The two arrays -/

/-- THE WEIGHT ARRAY is the reference's edge weights. -/
theorem weights_eq (c : Dev nD) (hr : ∀ i : S2x1600000.Idx, 0 ≤ ((m ((c : Thread nD τ).loc main_arg1)) i).toInt ∧ ((m ((c : Thread nD τ).loc main_arg1)) i).toInt < 100000) :
    ewOf (V m c main_v4) (V m c main_v5) (V m c main_v9) (V m c main_v10) (V m c main_v11) (V m c main_v12) (V m c main_v13) (V m c main_arg5) (V m c main_v14)
      = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [staged_src m c hr, staged_dst m c hr, staged_len m c hr, V_v10, V_v11, V_v12, V_v13, V_v14, V_main_arg5]
  funext i
  have hi : i = ix2 (⟨(i 0).val, (i 0).isLt⟩ : Fin 1600000) (⟨(i 1).val, (i 1).isLt⟩ : Fin 1) :=
    funext fun d => by match d with | ⟨0, _⟩ => rfl | ⟨1, _⟩ => rfl
  refine Eq.trans ?_ ((congrArg (Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hi).trans
    (Cert.ReferenceIdeal.RefRows.ref_weight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(i 0).val, (i 0).isLt⟩ ⟨(i 1).val, (i 1).isLt⟩)).symm
  unfold ewOf
  simp only [w1a_apply, w1b_apply, w1c_apply, rowOf_apply, oneOf_apply]

/-- THE MESSAGE ARRAY is the reference's messages. -/
theorem messages_eq (c : Dev nD) (hr : ∀ i : S2x1600000.Idx, 0 ≤ ((m ((c : Thread nD τ).loc main_arg1)) i).toInt ∧ ((m ((c : Thread nD τ).loc main_arg1)) i).toInt < 100000) :
    msgOf (V m c main_v4) (V m c main_v5) (V m c main_v9) (V m c main_v10) (V m c main_v11) (V m c main_v12) (V m c main_v13) (V m c main_arg5) (V m c main_v14) (V m c main_arg7) (V m c main_v15)
      = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [staged_src m c hr, staged_dst m c hr, staged_len m c hr, V_v10, V_v11, V_v12, V_v13, V_v14, V_v15, V_main_arg5, V_main_arg7]
  funext i
  have hi : i = ix2 (⟨(i 0).val, (i 0).isLt⟩ : Fin 1600000) (⟨(i 1).val, (i 1).isLt⟩ : Fin 64) :=
    funext fun d => by match d with | ⟨0, _⟩ => rfl | ⟨1, _⟩ => rfl
  refine Eq.trans ?_ ((congrArg (Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) hi).trans
    (Cert.ReferenceIdeal.RefRows.ref_message (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨(i 0).val, (i 0).isLt⟩ ⟨(i 1).val, (i 1).isLt⟩)).symm
  unfold msgOf
  simp only [w1a_apply, w1b_apply, w1c_apply, rowOf_apply, oneOf_apply]

end Cert.KernelIdeal.Meet

end
-- ==== Proof.KernelRun.lean ====
/-
  The kernel's program run to its end, with its two results named.

  After the region the program scatters the message array into a zero array by destination node; the weight array is
  a result as it stands. With the two arrays the reference's messages and weights, and the scatter's indices the
  reference's, both results are the reference's stages of the same arguments.
-/
import proofs.«419605_j38345468018707_1_alg».proof.Proof.KernelValue
import Idealize.ShloMosaic.Lib.StableHlo.Run

set_option maxRecDepth 16384

noncomputable section

namespace Cert.KernelIdeal.Run

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Blocks Cert.KernelIdeal.HostTerms Cert.KernelIdeal.HostVals
open Cert.KernelIdeal.Meet

variable (m : (ℓ : Loc nD τ sig) → Buf (Elt Ideal) ℓ) (ρ : Dev nD → PrngReg)

/-- What the lines after the region leave in the first result: the messages scattered by destination node. -/
theorem tail_out (c : Dev nD) :
    (Pipeline.afterTail₀ cfgs (dats m) 0 (V0 m) [hostOps1] c main_v19 : FVec Ideal S100000x64 .f32)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V m c main_v3 : IVec S1600000 32))
          ((dats m 0 c).arrAt 11 cfg0.N : FVec Ideal S1600000x64 .f32) := by
  unfold Pipeline.afterTail₀
  simp only [List.flatten_cons, List.flatten_nil, List.append_nil]
  show StableHlo.after hostOps1 _ (Proc.devRef .tc main_v19) = _
  after_results
  rw [Pipeline.withArrays_arr spec0 launch0.win.arr_inj c _ _ 11,
    Pipeline.withArrays_of_ne spec0 c (V0 m c) _ main_v3 (by exact (by decide : ∀ w, Pipeline.arrRef spec0 w ≠ main_v3))]

/-- The scattered messages are the reference's first result. -/
theorem out_eq (c : Dev nD) (hr : ∀ i : S2x1600000.Idx, 0 ≤ ((m ((c : Thread nD τ).loc main_arg1)) i).toInt ∧ ((m ((c : Thread nD τ).loc main_arg1)) i).toInt < 100000) :
    (Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V m c main_v3 : IVec S1600000 32))
          ((dats m 0 c).arrAt 11 cfg0.N : FVec Ideal S1600000x64 .f32) : FVec Ideal S100000x64 .f32)
      = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [final11, messages_eq m c hr, V_v3]
  rfl

/-- THE RUN: every weakly fair execution ends with the two results at the reference's stages of the arguments, the
    arguments unchanged. -/
theorem run (hr : ∀ (c : Dev nD) (i : S2x1600000.Idx), 0 ≤ ((m ((c : Thread nD τ).loc main_arg1)) i).toInt ∧ ((m ((c : Thread nD τ).loc main_arg1)) i).toInt < 100000) :
    θ_run defs (onTc (τ := τ) (main (F := Ideal))) ⟨m, fun _ => 0, ρ⟩ (fun r => ∀ c : Dev nD,
      r.2.mem ((c.tc : Thread nD τ).loc main_v19) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v16_1) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v19 (Pipeline.mem_restRefs_of main_v19 (by decide) (by decide))).trans ((tail_out m c).trans (out_eq m c (hr c))),
      ((h c).1 12).trans ((final12 m c).trans (weights_eq m c (hr c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      (((h c).2 main_arg6 (Pipeline.mem_restRefs_of main_arg6 (by decide) (by decide))).trans (W_main_arg6 m (dats m) c)),
      ((h c).1 9).trans (((dats m 0 c).arrAt_in 9 rfl _).trans ((A_eq m c 9).trans (V_main_arg7 m c))),
      (((h c).2 main_arg8 (Pipeline.mem_restRefs_of main_arg8 (by decide) (by decide))).trans (W_main_arg8 m (dats m) c))⟩)
    (run_main m ρ)

end Cert.KernelIdeal.Run

end
-- ==== Proof.lean ====
/-
  A weighted edge convolution: for every edge, a weight from a two-layer perceptron on the two endpoint feature rows and
  the edge's length, and a message, the source row's affine image scaled by that weight; the messages are summed
  into their destination nodes, and the weights are returned beside the sums.

  The kernel gathers the endpoint rows on the host, runs the perceptron and the affine map in one region of 800
  blocks of 2000 edges with the first layer's 129-row weight matrix cut into its three row blocks, and scatters
  on the host. The reference concatenates the three inputs, applies the 129-row matrix once, transforms all nodes
  and gathers afterwards. Over the extended reals the two are one function wherever every node number of the edge
  list is a node (the precondition): the kernel's masked gathers are then plain gathers, a sum over 129 terms is
  the sum of its three blocks, a gather of rows commutes with a map applied row by row, the in-kernel logistic
  function is the host's `1 / (1 + exp (−x))` by definition, and both programs end in the same scatter of equal
  arrays. No finiteness of the float inputs is used.

  The three frames: the two kernel programs' are the generated frame certificates; the reference's is its
  generated run with the results dropped. The idealization rewrote nothing, so `preserves` is trivial.
-/
import proofs.«419605_j38345468018707_1_alg».proof.Defs
import proofs.«419605_j38345468018707_1_alg».proof.Proof.Gen.Kernel
import proofs.«419605_j38345468018707_1_alg».proof.Proof.Gen.Kernel.Skeleton
import proofs.«419605_j38345468018707_1_alg».proof.Proof.Gen.Kernel.Launch
import proofs.«419605_j38345468018707_1_alg».proof.Proof.Gen.Kernel.Points
import proofs.«419605_j38345468018707_1_alg».proof.Proof.Gen.Kernel.Frame
import proofs.«419605_j38345468018707_1_alg».proof.Proof.Gen.KernelIdeal
import proofs.«419605_j38345468018707_1_alg».proof.Proof.Gen.KernelIdeal.Skeleton
import proofs.«419605_j38345468018707_1_alg».proof.Proof.Gen.KernelIdeal.Launch
import proofs.«419605_j38345468018707_1_alg».proof.Proof.Gen.KernelIdeal.Points
import proofs.«419605_j38345468018707_1_alg».proof.Proof.Gen.KernelIdeal.Frame
import proofs.«419605_j38345468018707_1_alg».proof.Proof.Gen.ReferenceIdeal
import proofs.«419605_j38345468018707_1_alg».proof.Proof.Gen.ReferenceIdeal.Run
import proofs.«419605_j38345468018707_1_alg».proof.Proof.Gen.ReferenceIdeal.Read
import proofs.«419605_j38345468018707_1_alg».proof.Proof.Gen.Pre_finite_inputs
import proofs.«419605_j38345468018707_1_alg».proof.Proof.PreDecode
import proofs.«419605_j38345468018707_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two stages of the shared arguments: the kernel's by its run under the
    precondition's range of the node numbers, the reference's by its generated run. -/
theorem algebraic : Cert.algebraic_KernelIdeal_ReferenceIdeal := by
  intro m ρ m' ρ' hpre hagree
  have hr : ∀ (c : Dev Cert.KernelIdeal.nD) (i : Cert.KernelIdeal.S2x1600000.Idx),
      0 ≤ ((m ((c.tc : Thread Cert.KernelIdeal.nD Cert.KernelIdeal.τ).loc Cert.KernelIdeal.main_arg1)) i).toInt ∧ ((m ((c.tc : Thread Cert.KernelIdeal.nD Cert.KernelIdeal.τ).loc Cert.KernelIdeal.main_arg1)) i).toInt < 100000 :=
    fun c i => Cert.PreDecode.index_range _ _ _ _ _ _ _ _ _ (hpre c) i
  refine ⟨_, _, Cert.KernelIdeal.Run.run m ρ hr, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v65_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
  · rw [Cert.ReferenceIdeal.Read.val_main_v49_eq, (hagree c).1, (hagree c).2.1, (hagree c).2.2.1, (hagree c).2.2.2.1,
      (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
